-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x32x1024 : Shape := ⟨3, ![256, 32, 1024]⟩
abbrev S256 : Shape := ⟨1, ![256]⟩
abbrev S32x1024x1024 : Shape := ⟨3, ![32, 1024, 1024]⟩
abbrev S32x1024 : Shape := ⟨2, ![32, 1024]⟩
abbrev S_ : Shape := ⟨0, ![]⟩

class Facts : Prop where
  bcast_S_S256x32x1024 : S_.BroadcastsInDim S256x32x1024 (![] : Fin 0 → Fin S256x32x1024.rank)
  reducesTo_S256x32x1024_S_d0_1_2 : S256x32x1024.ReducesTo [0, 1, 2] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_
  bcast_S_S32x1024 : S_.BroadcastsInDim S32x1024 (![] : Fin 0 → Fin S32x1024.rank)
  reducesTo_S32x1024_S_d0_1 : S32x1024.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg1 : IVec S256 32) (main_v13 : IVec S_ 1) (main_v15 : IVec S256 1) (main_c_5 : IVec S_ 1) : IVec S_ 1 :=
  let main_v16 : IVec S_ 1 := (fun x v => Host.reduce IntOp.andi x v reducesTo_S256_S_d0 h_S_) main_v15 main_c_5
  let main_v17 : IVec S_ 1 := andi main_v13 main_v16
  let main_c_6 : IVec S_ 32 := constantI S_ 32 32#32
  let main_v18 : IVec S256 32 := broadcastInDim S256 ![] bcast_S_S256 main_c_6
  let main_v19 : IVec S256 1 := cmpi .slt main_arg1 main_v18
  let main_c_7 : IVec S_ 1 := constantI S_ 1 1#1
  let main_v20 : IVec S_ 1 := (fun x v => Host.reduce IntOp.andi x v reducesTo_S256_S_d0 h_S_) main_v19 main_c_7
  let main_v21 : IVec S_ 1 := andi main_v17 main_v20
  main_v21

def fn {F : FTy → Type} [FloatOps F] (main_arg0 : FVec F S256x32x1024 .f32) (main_arg1 : IVec S256 32) (main_arg2 : FVec F S32x1024x1024 .f32) (main_arg3 : FVec F S32x1024 .f32) : IVec S_ 1 :=
  let main_v0 : FVec F S256x32x1024 .f32 := Host.absf main_arg0
  let main_cst : FVec F S_ .f32 := constant S_ .f32 0x7F800000#32
  let main_v1 : FVec F S256x32x1024 .f32 := broadcastInDim S256x32x1024 ![] bcast_S_S256x32x1024 main_cst
  let main_v2 : IVec S256x32x1024 1 := cmpf .olt main_v0 main_v1
  let main_c : IVec S_ 1 := constantI S_ 1 1#1
  let main_v3 : IVec S_ 1 := (fun x v => Host.reduce IntOp.andi x v reducesTo_S256x32x1024_S_d0_1_2 h_S_) main_v2 main_c
  let main_v4 : FVec F S32x1024x1024 .f32 := Host.absf main_arg2
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S32x1024 .f32 := Host.absf main_arg3
  let main_cst_2 : FVec F S_ .f32 := constant S_ .f32 0x7F800000#32
  let main_v10 : FVec F S32x1024 .f32 := broadcastInDim S32x1024 ![] bcast_S_S32x1024 main_cst_2
  let main_v11 : IVec S32x1024 1 := cmpf .olt main_v9 main_v10
  let main_c_3 : IVec S_ 1 := constantI S_ 1 1#1
  let main_v12 : IVec S_ 1 := (fun x v => Host.reduce IntOp.andi x v reducesTo_S32x1024_S_d0_1 h_S_) main_v11 main_c_3
  let main_v13 : IVec S_ 1 := andi main_v8 main_v12
  let main_c_4 : IVec S_ 32 := constantI S_ 32 0#32
  let main_v14 : IVec S256 32 := broadcastInDim S256 ![] bcast_S_S256 main_c_4
  let main_v15 : IVec S256 1 := cmpi .sge main_arg1 main_v14
  let main_c_5 : IVec S_ 1 := constantI S_ 1 1#1
  fn_part1 (F := F) main_arg1 main_v13 main_v15 main_c_5
-- ==== Kernel.lean ====
abbrev S256x32x1024 : Shape := ⟨3, ![256, 32, 1024]⟩
abbrev S256 : Shape := ⟨1, ![256]⟩
abbrev S32x1024x1024 : Shape := ⟨3, ![32, 1024, 1024]⟩
abbrev S32x1024 : Shape := ⟨2, ![32, 1024]⟩
abbrev S_ : Shape := ⟨0, ![]⟩
abbrev S256x1 : Shape := ⟨2, ![256, 1]⟩
abbrev S1 : Shape := ⟨1, ![1]⟩
abbrev S1x1 : Shape := ⟨2, ![1, 1]⟩
abbrev S1x32x1024 : Shape := ⟨3, ![1, 32, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 78
  | .vmem => 7
  | .smem => 1
  | _ => 0

abbrev bufTy : (tb : Table) → Fin (tcTables nBuf tb) → BufTy
  | .hbm, ⟨0, _⟩ => ⟨S256x32x1024, .f32⟩
  | .hbm, ⟨1, _⟩ => ⟨S256, .i32⟩
  | .hbm, ⟨2, _⟩ => ⟨S32x1024x1024, .f32⟩
  | .hbm, ⟨3, _⟩ => ⟨S32x1024, .f32⟩
  | .hbm, ⟨4, _⟩ => ⟨S256, .i32⟩
  | .hbm, ⟨5, _⟩ => ⟨S256, .i32⟩
  | .hbm, ⟨6, _⟩ => ⟨S256, .i32⟩
  | .hbm, ⟨7, _⟩ => ⟨S256, .i32⟩
  | .hbm, ⟨8, _⟩ => ⟨S256, .i32⟩
  | .hbm, ⟨9, _⟩ => ⟨S256, .i32⟩
  | .hbm, ⟨10, _⟩ => ⟨S_, .i32⟩
  | .hbm, ⟨11, _⟩ => ⟨S256, .i32⟩
  | .hbm, ⟨12, _⟩ => ⟨S256, .i1⟩
  | .hbm, ⟨13, _⟩ => ⟨S_, .i32⟩
  | .hbm, ⟨14, _⟩ => ⟨S256, .i32⟩
  | .hbm, ⟨15, _⟩ => ⟨S256, .i32⟩
  | .hbm, ⟨16, _⟩ => ⟨S256, .i32⟩
  | .hbm, ⟨17, _⟩ => ⟨S256x1, .i32⟩
  | .hbm, ⟨18, _⟩ => ⟨S1, .i32⟩
  | .hbm, ⟨19, _⟩ => ⟨S_, .i32⟩
  | .hbm, ⟨20, _⟩ => ⟨S256x1, .i32⟩
  | .hbm, ⟨21, _⟩ => ⟨S256x1, .i1⟩
  | .hbm, ⟨22, _⟩ => ⟨S1x1, .i32⟩
  | .hbm, ⟨23, _⟩ => ⟨S256x1, .i32⟩
  | .hbm, ⟨24, _⟩ => ⟨S256x1, .i1⟩
  | .hbm, ⟨25, _⟩ => ⟨S256x1, .i1⟩
  | .hbm, ⟨26, _⟩ => ⟨S_, .i1⟩
  | .hbm, ⟨27, _⟩ => ⟨S256, .i1⟩
  | .hbm, ⟨28, _⟩ => ⟨S256x32x1024, .f32⟩
  | .hbm, ⟨29, _⟩ => ⟨S256x32x1024, .i1⟩
  | .hbm, ⟨30, _⟩ => ⟨S_, .f32⟩
  | .hbm, ⟨31, _⟩ => ⟨S256x32x1024, .f32⟩
  | .hbm, ⟨32, _⟩ => ⟨S256x32x1024, .f32⟩
  | .hbm, ⟨33, _⟩ => ⟨S_, .i32⟩
  | .hbm, ⟨34, _⟩ => ⟨S256, .i32⟩
  | .hbm, ⟨35, _⟩ => ⟨S256, .i1⟩
  | .hbm, ⟨36, _⟩ => ⟨S_, .i32⟩
  | .hbm, ⟨37, _⟩ => ⟨S256, .i32⟩
  | .hbm, ⟨38, _⟩ => ⟨S256, .i32⟩
  | .hbm, ⟨39, _⟩ => ⟨S256, .i32⟩
  | .hbm, ⟨40, _⟩ => ⟨S256x1, .i32⟩
  | .hbm, ⟨41, _⟩ => ⟨S1, .i32⟩
  | .hbm, ⟨42, _⟩ => ⟨S_, .i32⟩
  | .hbm, ⟨43, _⟩ => ⟨S256x1, .i32⟩
  | .hbm, ⟨44, _⟩ => ⟨S256x1, .i1⟩
  | .hbm, ⟨45, _⟩ => ⟨S1x1, .i32⟩
  | .hbm, ⟨46, _⟩ => ⟨S256x1, .i32⟩
  | .hbm, ⟨47, _⟩ => ⟨S256x1, .i1⟩
  | .hbm, ⟨48, _⟩ => ⟨S256x1, .i1⟩
  | .hbm, ⟨49, _⟩ => ⟨S_, .i1⟩
  | .hbm, ⟨50, _⟩ => ⟨S256, .i1⟩
  | .hbm, ⟨51, _⟩ => ⟨S256, .i32⟩
  | .hbm, ⟨52, _⟩ => ⟨S_, .i32⟩
  | .hbm, ⟨53, _⟩ => ⟨S256, .i32⟩
  | .hbm, ⟨54, _⟩ => ⟨S256x32x1024, .f32⟩
  | .hbm, ⟨55, _⟩ => ⟨S_, .i32⟩
  | .hbm, ⟨56, _⟩ => ⟨S256, .i32⟩
  | .hbm, ⟨57, _⟩ => ⟨S256, .i1⟩
  | .hbm, ⟨58, _⟩ => ⟨S_, .i32⟩
  | .hbm, ⟨59, _⟩ => ⟨S256, .i32⟩
  | .hbm, ⟨60, _⟩ => ⟨S256, .i32⟩
  | .hbm, ⟨61, _⟩ => ⟨S256, .i32⟩
  | .hbm, ⟨62, _⟩ => ⟨S256x1, .i32⟩
  | .hbm, ⟨63, _⟩ => ⟨S1, .i32⟩
  | .hbm, ⟨64, _⟩ => ⟨S_, .i32⟩
  | .hbm, ⟨65, _⟩ => ⟨S256x1, .i32⟩
  | .hbm, ⟨66, _⟩ => ⟨S256x1, .i1⟩
  | .hbm, ⟨67, _⟩ => ⟨S1x1, .i32⟩
  | .hbm, ⟨68, _⟩ => ⟨S256x1, .i32⟩
  | .hbm, ⟨69, _⟩ => ⟨S256x1, .i1⟩
  | .hbm, ⟨70, _⟩ => ⟨S256x1, .i1⟩
  | .hbm, ⟨71, _⟩ => ⟨S_, .i1⟩
  | .hbm, ⟨72, _⟩ => ⟨S256, .i1⟩
  | .hbm, ⟨73, _⟩ => ⟨S256x32x1024, .f32⟩
  | .hbm, ⟨74, _⟩ => ⟨S256x32x1024, .i1⟩
  | .hbm, ⟨75, _⟩ => ⟨S_, .f32⟩
  | .hbm, ⟨76, _⟩ => ⟨S256x32x1024, .f32⟩
  | .hbm, ⟨77, _⟩ => ⟨S256x32x1024, .f32⟩
  | .local _ .vmem, ⟨0, _⟩ => ⟨S1x32x1024, .f32⟩
  | .local _ .vmem, ⟨1, _⟩ => ⟨S1x32x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S32x1024, .f32⟩
  | .local _ .vmem, ⟨5, _⟩ => ⟨S1x32x1024, .f32⟩
  | .local _ .vmem, ⟨6, _⟩ => ⟨S1x32x1024, .f32⟩
  | .local _ .smem, ⟨0, _⟩ => ⟨S256, .i32⟩
  | _, _ => ⟨S256x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1_0 : Ref sig .tc := ⟨.hbm, 5, rfl⟩
abbrev main_v0 : Ref sig .tc := ⟨.hbm, 6, rfl⟩
abbrev main_call1_v0 : Ref sig .tc := ⟨.hbm, 7, rfl⟩
abbrev main_call1_v1_0 : Ref sig .tc := ⟨.hbm, 8, rfl⟩
abbrev main_v1 : Ref sig .tc := ⟨.hbm, 9, rfl⟩
abbrev main_call2_c : Ref sig .tc := ⟨.hbm, 10, rfl⟩
abbrev main_call2_v0 : Ref sig .tc := ⟨.hbm, 11, rfl⟩
abbrev main_call2_v1 : Ref sig .tc := ⟨.hbm, 12, rfl⟩
abbrev main_call2_c_0 : Ref sig .tc := ⟨.hbm, 13, rfl⟩
abbrev main_call2_v2 : Ref sig .tc := ⟨.hbm, 14, rfl⟩
abbrev main_call2_v3 : Ref sig .tc := ⟨.hbm, 15, rfl⟩
abbrev main_call2_v4 : Ref sig .tc := ⟨.hbm, 16, rfl⟩
abbrev main_call2_v5 : Ref sig .tc := ⟨.hbm, 17, rfl⟩
abbrev main_call2_c_1 : Ref sig .tc := ⟨.hbm, 18, rfl⟩
abbrev main_call2_c_2 : Ref sig .tc := ⟨.hbm, 19, rfl⟩
abbrev main_call2_v6 : Ref sig .tc := ⟨.hbm, 20, rfl⟩
abbrev main_call2_v7 : Ref sig .tc := ⟨.hbm, 21, rfl⟩
abbrev main_call2_v8 : Ref sig .tc := ⟨.hbm, 22, rfl⟩
abbrev main_call2_v9 : Ref sig .tc := ⟨.hbm, 23, rfl⟩
abbrev main_call2_v10 : Ref sig .tc := ⟨.hbm, 24, rfl⟩
abbrev main_call2_v11 : Ref sig .tc := ⟨.hbm, 25, rfl⟩
abbrev main_call2_c_3 : Ref sig .tc := ⟨.hbm, 26, rfl⟩
abbrev main_call2_v12 : Ref sig .tc := ⟨.hbm, 27, rfl⟩
abbrev main_call2_v13 : Ref sig .tc := ⟨.hbm, 28, rfl⟩
abbrev main_call2_v14 : Ref sig .tc := ⟨.hbm, 29, rfl⟩
abbrev main_call2_cst : Ref sig .tc := ⟨.hbm, 30, rfl⟩
abbrev main_call2_v15 : Ref sig .tc := ⟨.hbm, 31, rfl⟩
abbrev main_v2 : Ref sig .tc := ⟨.hbm, 32, rfl⟩
abbrev main_call3_c : Ref sig .tc := ⟨.hbm, 33, rfl⟩
abbrev main_call3_v0 : Ref sig .tc := ⟨.hbm, 34, rfl⟩
abbrev main_call3_v1 : Ref sig .tc := ⟨.hbm, 35, rfl⟩
abbrev main_call3_c_0 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_call3_v5 : Ref sig .tc := ⟨.hbm, 40, rfl⟩
abbrev main_call3_c_1 : Ref sig .tc := ⟨.hbm, 41, rfl⟩
abbrev main_call3_c_2 : Ref sig .tc := ⟨.hbm, 42, rfl⟩
abbrev main_call3_v6 : Ref sig .tc := ⟨.hbm, 43, rfl⟩
abbrev main_call3_v7 : Ref sig .tc := ⟨.hbm, 44, rfl⟩
abbrev main_call3_v8 : Ref sig .tc := ⟨.hbm, 45, rfl⟩
abbrev main_call3_v9 : Ref sig .tc := ⟨.hbm, 46, rfl⟩
abbrev main_call3_v10 : Ref sig .tc := ⟨.hbm, 47, rfl⟩
abbrev main_call3_v11 : Ref sig .tc := ⟨.hbm, 48, rfl⟩
abbrev main_call3_c_3 : Ref sig .tc := ⟨.hbm, 49, rfl⟩
abbrev main_call3_v12 : Ref sig .tc := ⟨.hbm, 50, rfl⟩
abbrev main_call3_v13 : Ref sig .tc := ⟨.hbm, 51, rfl⟩
abbrev main_call3_c_4 : Ref sig .tc := ⟨.hbm, 52, rfl⟩
abbrev main_call3_v14 : Ref sig .tc := ⟨.hbm, 53, rfl⟩
abbrev main_v4 : Ref sig .tc := ⟨.hbm, 54, rfl⟩
abbrev main_call4_c : Ref sig .tc := ⟨.hbm, 55, rfl⟩
abbrev main_call4_v0 : Ref sig .tc := ⟨.hbm, 56, rfl⟩
abbrev main_call4_v1 : Ref sig .tc := ⟨.hbm, 57, rfl⟩
abbrev main_call4_c_0 : Ref sig .tc := ⟨.hbm, 58, rfl⟩
abbrev main_call4_v2 : Ref sig .tc := ⟨.hbm, 59, rfl⟩
abbrev main_call4_v3 : Ref sig .tc := ⟨.hbm, 60, rfl⟩
abbrev main_call4_v4 : Ref sig .tc := ⟨.hbm, 61, rfl⟩
abbrev main_call4_v5 : Ref sig .tc := ⟨.hbm, 62, rfl⟩
abbrev main_call4_c_1 : Ref sig .tc := ⟨.hbm, 63, rfl⟩
abbrev main_call4_c_2 : Ref sig .tc := ⟨.hbm, 64, rfl⟩
abbrev main_call4_v6 : Ref sig .tc := ⟨.hbm, 65, rfl⟩
abbrev main_call4_v7 : Ref sig .tc := ⟨.hbm, 66, rfl⟩
abbrev main_call4_v8 : Ref sig .tc := ⟨.hbm, 67, rfl⟩
abbrev main_call4_v9 : Ref sig .tc := ⟨.hbm, 68, rfl⟩
abbrev main_call4_v10 : Ref sig .tc := ⟨.hbm, 69, rfl⟩
abbrev main_call4_v11 : Ref sig .tc := ⟨.hbm, 70, rfl⟩
abbrev main_call4_c_3 : Ref sig .tc := ⟨.hbm, 71, rfl⟩
abbrev main_call4_v12 : Ref sig .tc := ⟨.hbm, 72, rfl⟩
abbrev main_call4_v13 : Ref sig .tc := ⟨.hbm, 73, rfl⟩
abbrev main_call4_v14 : Ref sig .tc := ⟨.hbm, 74, rfl⟩
abbrev main_call4_cst : Ref sig .tc := ⟨.hbm, 75, rfl⟩
abbrev main_call4_v15 : Ref sig .tc := ⟨.hbm, 76, rfl⟩
abbrev main_v5 : Ref sig .tc := ⟨.hbm, 77, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![256], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v1 : BitVec 32) : Fin 2 → Nat :=
  let v8 : Index := Scalar.indexCast v1
  let c0_5 : Index := 0#32
  ![v8.toNat, 0]

def k0_chk1 (v1 : BitVec 32) : Prop :=
  (∀ a, (k0_off2 v1) a + S1x1024.size a ≤ S32x1024.size a)
instance k0_chk1.dec : ∀ (v1 : BitVec 32), Decidable (k0_chk1 v1) := fun v1 => decidable_of_iff' _ (Iff.of_eq (k0_chk1.eq_1 v1))
theorem k0_off2_inb : ∀ (v1 : BitVec 32) (k0_hw1 : k0_chk1 v1), ∀ a, (k0_off2 v1) a + S1x1024.size a ≤ S32x1024.size a := fun v1 k0_hw1 => k0_hw1

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S256.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S256 : S_.BroadcastsInDim S256 (![] : Fin 0 → Fin S256.rank)
  bcast_S256_S256x1_0 : S256.BroadcastsInDim S256x1 (![0] : Fin 1 → Fin S256x1.rank)
  bcast_S_S256x1 : S_.BroadcastsInDim S256x1 (![] : Fin 0 → Fin S256x1.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  reducesTo_S256x1_S256_d1 : S256x1.ReducesTo [1] S256
  h_S_ : 0 < S_.numel
  bcast_S256_S256x32x1024_0 : S256.BroadcastsInDim S256x32x1024 (![0] : Fin 1 → Fin S256x32x1024.rank)
  bcast_S_S256x32x1024 : S_.BroadcastsInDim S256x32x1024 (![] : Fin 0 → Fin S256x32x1024.rank)
  numel1_S1 : S1.numel = 1
  inb_S1x32x1024_S1x32x1024_0_0_0 : ∀ a, (![0, 0, 0] : Fin 3 → Nat) a + S1x32x1024.size a ≤ S1x32x1024.size a
  h_S1x32x1024 : 0 < S1x32x1024.numel
  shapeCasts_S1x32x1024_S32x1024 : S1x32x1024.ShapeCasts S32x1024
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  h_S1x1024 : 0 < S1x1024.numel
  shapeCasts_S1x1024_S1024 : S1x1024.ShapeCasts S1024
  shapeCasts_S1024_S1x1024 : S1024.ShapeCasts S1x1024
  broadcasts_S1x1024_S32x1024 : S1x1024.Broadcasts S32x1024
  shapeCasts_S32x1024_S1x32x1024 : S32x1024.ShapeCasts S1x32x1024
  gather_S256x32x1024_S256x1_S256x32x1024_12_0_n_n_0_1_1321024_wf : GatherDims.WF S256x32x1024 S256x1 S256x32x1024 [1, 2] [0] [] [0] [] 1 ![1, 32, 1024]
  gather_S256_S256x1_S256_n_0_n_n_0_1_1_wf : GatherDims.WF S256 S256x1 S256 [] [0] [] [0] [] 1 ![1]
  dot_S32x1024_S1024x1024_S32x1024_1_0_0_1_n_n_wf : DotDims.WF S32x1024 S1024x1024 S32x1024 [1] [0] [0] [1] [] []
  hrank0 : 0 < grid0.rank
  k0_off1_inb : ∀ i : grid0.Coords, ∀ a, (k0_off1 i) a + S1.size a ≤ S256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x1024.size a ≤ S256x32x1024.size a
  hwx0_0 : ∀ i : grid0.Coords, EltTy.bits .f32 = 32 ∨ (Rect.block (s := S256x32x1024) S1x32x1024.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1024.size a ≤ S32x1024.size a
  hwx0_2 : ∀ i : grid0.Coords, EltTy.bits .f32 = 32 ∨ (Rect.block (s := S32x1024) S32x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x1024.size a ≤ S256x32x1024.size a
  hwx0_3 : ∀ i : grid0.Coords, EltTy.bits .f32 = 32 ∨ (Rect.block (s := S256x32x1024) S1x32x1024.size (cc0_transform_3 i) (hinb0_3 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S256x32x1024_S256x1_S256x32x1024_12_0_n_n_0_1_1321024 : GatherDims S256x32x1024 S256x1 S256x32x1024 where
  offsetDims := [1, 2]
  collapsedSliceDims := [0]
  operandBatchingDims := []
  startIndicesBatchingDims := []
  startIndexMap := [0]
  indexVectorDim := 1
  sliceSizes := ![1, 32, 1024]
  wf := gather_S256x32x1024_S256x1_S256x32x1024_12_0_n_n_0_1_1321024_wf
def gather_S256_S256x1_S256_n_0_n_n_0_1_1 : GatherDims S256 S256x1 S256 where
  offsetDims := []
  collapsedSliceDims := [0]
  operandBatchingDims := []
  startIndicesBatchingDims := []
  startIndexMap := [0]
  indexVectorDim := 1
  sliceSizes := ![1]
  wf := gather_S256_S256x1_S256_n_0_n_n_0_1_1_wf
def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf

abbrev spec0_0 : Pipeline.WinSpec sig grid0.rank :=
  Pipeline.WinSpec.ofSpec (Memref.whole main_v2) S1x32x1024.size reads0_0 false false 2 stage0_0 sem0_0 nbuf0_0 hstage0_0

abbrev spec0_1 : Pipeline.WinSpec sig grid0.rank :=
  Pipeline.WinSpec.ofSpec (Memref.whole main_arg2) S1x1024x1024.size reads0_1 false false 2 stage0_1 sem0_1 nbuf0_1 hstage0_1

abbrev spec0_2 : Pipeline.WinSpec sig grid0.rank :=
  Pipeline.WinSpec.ofSpec (Memref.whole main_arg3) S32x1024.size reads0_2 false true 1 stage0_2 sem0_2 nbuf0_2 hstage0_2

abbrev spec0_3 : Pipeline.WinSpec sig grid0.rank :=
  Pipeline.WinSpec.ofSpec (Memref.whole main_v4) S1x32x1024.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 k0_off1_inb numel1_S1 pf | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | 3 => hreads0_3 | ⟨_ + 4, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x1024x1024.size a ≤ S32x1024x1024.size a), EltTy.bits .f32 = 32 ∨ (Rect.block (s := S32x1024x1024) S1x1024x1024.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S256x32x1024 : Shape := ⟨3, ![256, 32, 1024]⟩
abbrev S256 : Shape := ⟨1, ![256]⟩
abbrev S32x1024x1024 : Shape := ⟨3, ![32, 1024, 1024]⟩
abbrev S32x1024 : Shape := ⟨2, ![32, 1024]⟩
abbrev S_ : Shape := ⟨0, ![]⟩
abbrev S256x1 : Shape := ⟨2, ![256, 1]⟩
abbrev S256x1024x1024 : Shape := ⟨3, ![256, 1024, 1024]⟩
abbrev S256x1024 : Shape := ⟨2, ![256, 1024]⟩
abbrev S256x1x1024 : Shape := ⟨3, ![256, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S256x32x1024, .f32⟩
  | .hbm, ⟨1, _⟩ => ⟨S256, .i32⟩
  | .hbm, ⟨2, _⟩ => ⟨S32x1024x1024, .f32⟩
  | .hbm, ⟨3, _⟩ => ⟨S32x1024, .f32⟩
  | .hbm, ⟨4, _⟩ => ⟨S_, .i32⟩
  | .hbm, ⟨5, _⟩ => ⟨S256, .i32⟩
  | .hbm, ⟨6, _⟩ => ⟨S256, .i1⟩
  | .hbm, ⟨7, _⟩ => ⟨S_, .i32⟩
  | .hbm, ⟨8, _⟩ => ⟨S256, .i32⟩
  | .hbm, ⟨9, _⟩ => ⟨S256, .i32⟩
  | .hbm, ⟨10, _⟩ => ⟨S256, .i32⟩
  | .hbm, ⟨11, _⟩ => ⟨S256x1, .i32⟩
  | .hbm, ⟨12, _⟩ => ⟨S256x1024x1024, .f32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S_, .i32⟩
  | .hbm, ⟨17, _⟩ => ⟨S256, .i32⟩
  | .hbm, ⟨18, _⟩ => ⟨S256, .i32⟩
  | .hbm, ⟨19, _⟩ => ⟨S256, .i32⟩
  | .hbm, ⟨20, _⟩ => ⟨S256x1, .i32⟩
  | .hbm, ⟨21, _⟩ => ⟨S256x1024, .f32⟩
  | .hbm, ⟨22, _⟩ => ⟨S256x32x1024, .f32⟩
  | .hbm, ⟨23, _⟩ => ⟨S256x1x1024, .f32⟩
  | .hbm, ⟨24, _⟩ => ⟨S256x32x1024, .f32⟩
  | .hbm, ⟨25, _⟩ => ⟨S256x32x1024, .f32⟩
  | _, _ => ⟨S256x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1_0 : S256.BroadcastsInDim S256x1 (![0] : Fin 1 → Fin S256x1.rank)
  bcast_S256x1024_S256x1x1024_0_2 : S256x1024.BroadcastsInDim S256x1x1024 (![0, 2] : Fin 2 → Fin S256x1x1024.rank)
  bcast_S256x1x1024_S256x32x1024_0_1_2 : S256x1x1024.BroadcastsInDim S256x32x1024 (![0, 1, 2] : Fin 3 → Fin S256x32x1024.rank)
  gather_S32x1024x1024_S256x1_S256x1024x1024_12_0_n_n_0_1_110241024_wf : GatherDims.WF S32x1024x1024 S256x1 S256x1024x1024 [1, 2] [0] [] [0] [] 1 ![1, 1024, 1024]
  gather_S32x1024_S256x1_S256x1024_1_0_n_n_0_1_11024_wf : GatherDims.WF S32x1024 S256x1 S256x1024 [1] [0] [] [0] [] 1 ![1, 1024]
  dot_S256x32x1024_S256x1024x1024_S256x32x1024_2_1_1_2_0_0_wf : DotDims.WF S256x32x1024 S256x1024x1024 S256x32x1024 [2] [1] [1] [2] [0] [0]

variable [Facts₀]

def gather_S32x1024x1024_S256x1_S256x1024x1024_12_0_n_n_0_1_110241024 : GatherDims S32x1024x1024 S256x1 S256x1024x1024 where
  offsetDims := [1, 2]
  collapsedSliceDims := [0]
  operandBatchingDims := []
  startIndicesBatchingDims := []
  startIndexMap := [0]
  indexVectorDim := 1
  sliceSizes := ![1, 1024, 1024]
  wf := gather_S32x1024x1024_S256x1_S256x1024x1024_12_0_n_n_0_1_110241024_wf
def gather_S32x1024_S256x1_S256x1024_1_0_n_n_0_1_11024 : GatherDims S32x1024 S256x1 S256x1024 where
  offsetDims := [1]
  collapsedSliceDims := [0]
  operandBatchingDims := []
  startIndicesBatchingDims := []
  startIndexMap := [0]
  indexVectorDim := 1
  sliceSizes := ![1, 1024]
  wf := gather_S32x1024_S256x1_S256x1024_1_0_n_n_0_1_11024_wf
def dot_S256x32x1024_S256x1024x1024_S256x32x1024_2_1_1_2_0_0 : DotDims S256x32x1024 S256x1024x1024 S256x32x1024 where
  lhsContracting := [2]
  rhsContracting := [1]
  lhsNonContracting := [1]
  rhsNonContracting := [2]
  lhsBatch := [0]
  rhsBatch := [0]
  wf := dot_S256x32x1024_S256x1024x1024_S256x32x1024_2_1_1_2_0_0_wf

class Facts : Prop extends Facts₀ where

variable [Facts]
-- ==== Proof.LibTRef.lean ====
/-
  A value carried to a typed reference's buffer type and back is the value. A host operation of an inlined function is
  stated through typed references: its function takes the operands from their buffers' types to the values' types and
  returns the result the other way, each a transport along the reference's type equation. Composed, the two transports
  cancel, whatever the signature and the reference.
-/
import Idealize.ShloMosaic.Lib.StableHlo

noncomputable section

namespace Cert.LibTRef

open Idealize.ShloMosaic Idealize.ShloMosaic.StableHlo

/-- The round trip through a typed reference's buffer type is the identity. -/
theorem ofBuf_toBuf {sig : RefSig} {Val : EltTy → Type} {T : BufTy} (x : TRef sig T) (v : T.Contents Val) :
    x.ofBuf (x.toBuf v) = v := by
  obtain ⟨r, h, d, u⟩ := x
  subst h
  rfl

end Cert.LibTRef

end
-- ==== Proof.LibArgsort.lean ====
/-
  An argsort of a vector of 32-bit keys (a stable sort of the keys by signed "less than", carrying the positions
  0, 1, …, n - 1 along) read as a self-map of the positions: sorted position k holds the position src keys k of the
  key that lands there. That map is a bijection, and the argsort of an argsort is its inverse.
-/
import Idealize.ShloMosaic.Lib.SortFacts
import Idealize.ShloMosaic.Lib.StableHlo.Predicate

namespace Cert.LibArgsort

open Idealize.ShloMosaic

/-- Position k's key sorts strictly before position k''s. -/
def keyBefore {n : Nat} (keys : IVec ⟨1, ![n]⟩ 32) (k k' : Fin n) : Bool :=
  IntOp.cmpi .slt (keys (Shape.Idx.ofFin k)) (keys (Shape.Idx.ofFin k')) == 1#1

/-- The position whose key the stable sort puts at sorted position k. -/
def src {n : Nat} (keys : IVec ⟨1, ![n]⟩ 32) (k : Fin n) : Fin n := sortedFrom (keyBefore keys) k

/-- The stable sort under the strict total order "τ⁻¹ k < τ⁻¹ k'" reads the positions through τ itself. -/
theorem sortedFrom_of_perm {n : Nat} (τ : Equiv.Perm (Fin n)) :
    sortedFrom (fun k k' => decide (τ.symm k < τ.symm k')) = τ := by
  funext k
  unfold sortedFrom
  rw [List.get_of_eq (sortPositions_of_perm τ)]
  simp

/-- Two words below 2^31 compare, signed, as their values. -/
theorem cmpi_slt_ofNat (a b : Nat) (ha : a < 2 ^ 31) (hb : b < 2 ^ 31) :
    (IntOp.cmpi .slt (BitVec.ofNat 32 a) (BitVec.ofNat 32 b) == 1#1) = decide (a < b) := by
  rw [Bool.eq_iff_iff, beq_iff_eq, decide_eq_true_eq]
  exact StableHlo.Predicate.slt_ofNat_iff a b ha hb

/-- The argsort's entry at j is the source position of sorted position j, as a word. -/
theorem argsort_apply {n : Nat} (keys : IVec ⟨1, ![n]⟩ 32)
    (cmp : BitVec 32 × BitVec 32 → BitVec 32 × BitVec 32 → BitVec 1)
    (hcmp : ∀ l r, cmp l r = IntOp.cmpi .slt l.1 r.1) (j : (⟨1, ![n]⟩ : Shape).Idx) :
    (Host.sort2 ⟨1, ![n]⟩ 0 cmp keys (iotaInDim ⟨1, ![n]⟩ 32 0)).2 j = BitVec.ofNat 32 (src keys (j 0)).val := by
  unfold Host.sort2
  simp [hcmp, iotaInDim]
  rfl

theorem src_injective {n : Nat} (keys : IVec ⟨1, ![n]⟩ 32) : Function.Injective (src keys) :=
  sortedFrom_injective (keyBefore keys)

theorem src_surjective {n : Nat} (keys : IVec ⟨1, ![n]⟩ 32) : Function.Surjective (src keys) :=
  sortedFrom_surjective (keyBefore keys)

/-- The argsort of an argsort inverts it: if p holds the source positions of keys as words, then the source position
    (under p as keys) of sorted position i is the sorted position at which position i's key landed. -/
theorem src_src {n : Nat} (hn : n ≤ 2 ^ 31) (keys p : IVec ⟨1, ![n]⟩ 32)
    (hp : ∀ k : Fin n, p (Shape.Idx.ofFin k) = BitVec.ofNat 32 (src keys k).val) (i : Fin n) :
    src keys (src p i) = i := by
  -- the argsort of the keys, as a permutation of the positions
  let σ : Equiv.Perm (Fin n) := Equiv.ofBijective (src keys) ⟨src_injective keys, src_surjective keys⟩
  have hσ : ∀ k, σ k = src keys k := fun _ => rfl
  -- p's word at k is σ k, below 2^31: p's order is "σ k < σ k'", the order of τ := σ⁻¹
  have hkb : keyBefore p = fun k k' => decide (σ.symm.symm k < σ.symm.symm k') := by
    funext k k'
    unfold keyBefore
    rw [hp k, hp k', cmpi_slt_ofNat _ _ (lt_of_lt_of_le (src keys k).isLt hn) (lt_of_lt_of_le (src keys k').isLt hn)]
    rfl
  have hsrc : src p i = σ.symm i := by
    unfold src
    rw [hkb, sortedFrom_of_perm σ.symm]
  rw [hsrc, ← hσ, Equiv.apply_symm_apply]

end Cert.LibArgsort
-- ==== Proof.LibTake.lean ====
/-
  Taking rows by a vector of positions, as it is lowered with out-of-range positions filled: the positions are
  wrapped (a negative one gets the row count added), kept as a column, tested against 0 and the last row, the rows
  gathered at the column, and the fill value selected where the test fails. When every position is a row number the
  test holds everywhere and the result is the table read at those rows.
-/
import Idealize.ShloMosaic.Lib.ValueIdx
import Idealize.ShloMosaic.Lib.SortFacts
import Idealize.ShloMosaic.Lib.ReduceAll
import Idealize.ShloMosaic.Lib.StableHlo.Predicate

namespace Cert.LibTake

open Idealize.ShloMosaic Idealize.ShloMosaic.ValueIdx

/-- 256 positions. -/
abbrev R : Shape := ⟨1, ![256]⟩
/-- The positions as a column. -/
abbrev C : Shape := ⟨2, ![256, 1]⟩
abbrev S0 : Shape := ⟨0, ![]⟩
abbrev S1 : Shape := ⟨1, ![1]⟩
abbrev S11 : Shape := ⟨2, ![1, 1]⟩

/-- The wrapped positions, as a column. -/
def col (hb0 : S0.BroadcastsInDim R (![] : Fin 0 → Fin R.rank)) (hb1 : R.BroadcastsInDim C (![0] : Fin 1 → Fin C.rank))
    (idx : IVec R 32) : IVec C 32 :=
  broadcastInDim C ![0] hb1
    (select (cmpi .slt idx (broadcastInDim R ![] hb0 (constantI S0 32 0#32)))
      (addi idx (broadcastInDim R ![] hb0 (constantI S0 32 256#32))) idx)

/-- The test "0 ≤ position ≤ 255", per position. -/
def inb (hb2 : S0.BroadcastsInDim C (![] : Fin 0 → Fin C.rank)) (hb3 : S1.BroadcastsInDim S11 (![1] : Fin 1 → Fin S11.rank))
    (hb4 : S11.BroadcastsInDim C (![0, 1] : Fin 2 → Fin C.rank)) (hr : C.ReducesTo [1] R) (h0 : 0 < S0.numel)
    (c : IVec C 32) : IVec R 1 :=
  Host.reduce IntOp.andi
    (andi (cmpi .sge c (broadcastInDim C ![] hb2 (constantI S0 32 0#32)))
      (cmpi .sle c (broadcastInDim C ![0, 1] hb4 (broadcastInDim S11 ![1] hb3 (constantI S1 32 255#32)))))
    (constantI S0 1 1#1) hr h0

/-! ## Reading the column and the one-column rectangle at an index -/

/-- A vector kept as a column reads, at (n, 0), the vector at n. -/
theorem bcast_col_apply {α : Type} (hb1 : R.BroadcastsInDim C (![0] : Fin 1 → Fin C.rank)) (v : R.Idx → α) (n : Fin 256) :
    broadcastInDim C ![0] hb1 v (ix2 n (0 : Fin 1)) = v (ix1 n) := by
  simp only [broadcastInDim]
  congr 1
  funext a
  have ha : a = 0 := Subsingleton.elim _ _
  subst ha
  apply Fin.ext
  split
  · next h1 => exact absurd h1 (by decide)
  · rfl

/-- Every index of the column is (m, 0). -/
theorem eq_col_idx (i : C.Idx) : i = ix2 (i 0) (0 : Fin 1) := by
  funext a
  match a with
  | ⟨0, _⟩ => rfl
  | ⟨1, _⟩ => exact Fin.ext (Nat.lt_one_iff.1 (i 1).isLt)

/-- A row number, as a 32-bit word, reads signed as itself. -/
theorem toInt_row (k : Fin 256) : (BitVec.ofNat 32 k.val).toInt = (k.val : Int) :=
  StableHlo.Predicate.toInt_ofNat_small k.val (by have := k.isLt; omega)

/-- A left fold of "and" from 1 over bits that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have ha : f a = 1#1 := h a List.mem_cons_self
    show List.foldl (fun r n => IntOp.andi r (f n)) (IntOp.andi 1#1 (f a)) l = 1#1
    rw [ha]
    exact foldl_andi_one f l (fun n hn => h n (List.mem_cons_of_mem _ hn))

/-- Positions that are row numbers are not wrapped. -/
theorem col_apply (hb0 : S0.BroadcastsInDim R (![] : Fin 0 → Fin R.rank)) (hb1 : R.BroadcastsInDim C (![0] : Fin 1 → Fin C.rank))
    (idx : IVec R 32) (p : Fin 256 → Fin 256) (hp : ∀ n : Fin 256, idx (ix1 n) = BitVec.ofNat 32 (p n).val) (n : Fin 256) :
    col hb0 hb1 idx (ix2 n (0 : Fin 1)) = BitVec.ofNat 32 (p n).val := by
  unfold col
  rw [bcast_col_apply]
  -- at position n the select tests "position < 0", which fails for a row number, and keeps the position
  show Scalar.select (IntOp.cmpi .slt (idx (ix1 n)) 0#32) (IntOp.addi (idx (ix1 n)) 256#32) (idx (ix1 n)) = _
  rw [hp n]
  have hneg : ¬ IntOp.cmpi .slt (BitVec.ofNat 32 (p n).val) 0#32 = 1#1 := by
    rw [IntOp.cmpi_slt, toInt_row]
    have h0 : (0#32 : BitVec 32).toInt = 0 := by decide
    rw [h0]; omega
  rw [eq_zero_of_ne_one hneg, select_zero]

/-- and pass the test. -/
theorem inb_apply (hb2 : S0.BroadcastsInDim C (![] : Fin 0 → Fin C.rank)) (hb3 : S1.BroadcastsInDim S11 (![1] : Fin 1 → Fin S11.rank))
    (hb4 : S11.BroadcastsInDim C (![0, 1] : Fin 2 → Fin C.rank)) (hr : C.ReducesTo [1] R) (h0 : 0 < S0.numel)
    (c : IVec C 32) (p : Fin 256 → Fin 256) (hc : ∀ n : Fin 256, c (ix2 n (0 : Fin 1)) = BitVec.ofNat 32 (p n).val) (n : Fin 256) :
    inb hb2 hb3 hb4 hr h0 c (ix1 n) = 1#1 := by
  unfold inb
  rw [Host.reduce_eq_foldl]
  -- the reduction starts from 1 and every entry of the one-column mask is 1
  refine foldl_andi_one _ _ (fun i _ => ?_)
  rw [eq_col_idx i]
  show IntOp.andi (IntOp.cmpi .sge (c (ix2 (i 0) (0 : Fin 1))) 0#32) (IntOp.cmpi .sle (c (ix2 (i 0) (0 : Fin 1))) 255#32) = 1#1
  rw [hc (i 0), IntOp.andi_eq_one, IntOp.cmpi_sge, IntOp.cmpi_sle, toInt_row]
  have h0 : (0#32 : BitVec 32).toInt = 0 := by decide
  have h255 : (255#32 : BitVec 32).toInt = 255 := by decide
  rw [h0, h255]
  have := (p (i 0)).isLt
  omega

/-! ## The gathers -/

/-- Row n of a column of start indices, in the two spellings of the index. -/
theorem ixP_eq (n : Fin 256) : (StableHlo.Predicate.ixP n : C.Idx) = ix2 n (0 : Fin 1) := by
  funext a
  match a with
  | ⟨0, _⟩ => rfl
  | ⟨1, _⟩ => rfl

/-- A rank-1 index in its two spellings. -/
theorem ofFin_eq (n : Fin 256) : (Shape.Idx.ofFin n : R.Idx) = ix1 n := by
  funext a
  match a with
  | ⟨0, _⟩ => rfl

/-- A row number read signed and clamped to 0 … 255 is itself. -/
theorem clamp_row (k : Fin 256) : min (BitVec.ofNat 32 k.val).toInt.toNat (256 - 1) = k.val := by
  rw [toInt_row, Int.toNat_natCast]
  have := k.isLt
  omega

/-- Slabs of a rank-3 table of 256 rows gathered by a 256 × 1 column of start indices, with the table's row axis
    collapsed and start-indexed, its two other axes the result's offset axes, no batching axes and the index vector on
    axis 1: entry (n, a, b) of the result is the table's entry (r, a, b), where r is start index n read as a signed
    integer and clamped into 0 … 255. -/
theorem gather_slabs_apply {α : Type} {A B w : Nat} (d : GatherDims ⟨3, ![256, A, B]⟩ C ⟨3, ![256, A, B]⟩)
    (hoff : d.offsetDims = [1, 2]) (hcoll : d.collapsedSliceDims = [0]) (hob : d.operandBatchingDims = [])
    (hsim : d.startIndexMap = [0]) (hivd : d.indexVectorDim = 1)
    (x : (⟨3, ![256, A, B]⟩ : Shape).Idx → α) (idx : IVec C w) (n : Fin 256) (a : Fin A) (b : Fin B) :
    Host.gather d x idx (ix3 n a b)
      = x (ix3 (⟨min (idx (ix2 n (0 : Fin 1))).toInt.toNat (256 - 1), by omega⟩ : Fin 256) a b) := by
  unfold Host.gather
  congr 1
  funext e
  -- no operand axis is a batching axis, so the batching coordinate vanishes on every axis
  have hb : ∀ c : Fin 3, c ∉ d.operandBatchingDims := fun c => by rw [hob]; exact List.not_mem_nil
  have h10 : (1 : Fin 3) ≠ 0 := by decide
  have h20 : (2 : Fin 3) ≠ 0 := by decide
  -- the operand's kept axes are 1 and 2, in order
  have hsk : d.sKept = [1, 2] := by
    show Shape.kept _ (d.collapsedSliceDims ++ d.operandBatchingDims) = _
    rw [hcoll, hob]; rfl
  -- reading a two-element list at a position known by value
  have key : ∀ (l : List (Fin 3)) (k : Nat) (h : k < l.length) (u v : Fin 3), l = [u, v] →
      (k = 0 → l[k] = u) ∧ (k = 1 → l[k] = v) := by
    intro l k h u v hl; subst hl
    exact ⟨fun hk => by subst hk; rfl, fun hk => by subst hk; rfl⟩
  refine Fin.ext ?_
  show d.start (ix3 n a b) idx e + d.batchCoord (ix3 n a b) e + d.offCoord (ix3 n a b) e = _
  rw [GatherDims.batchCoord_eq_zero _ _ _ (hb e), Nat.add_zero]
  match e with
  | ⟨0, _⟩ =>
    -- the row axis: collapsed (offset coordinate 0, slice size 1) and start-indexed, so the operand index is the
    -- start index of position n clamped to 255
    show d.start (ix3 n a b) idx (0 : Fin 3) + d.offCoord (ix3 n a b) (0 : Fin 3)
      = min (idx (ix2 n (0 : Fin 1))).toInt.toNat (256 - 1)
    have hc : (0 : Fin 3) ∈ d.collapsedSliceDims := by rw [hcoll]; exact List.mem_singleton.mpr rfl
    have hk : (0 : Fin 3) ∉ d.sKept := fun h => ((GatherDims.mem_sKept _ _).mp h).1 hc
    have hm : (0 : Fin 3) ∈ d.startIndexMap := by rw [hsim]; exact List.mem_singleton.mpr rfl
    have hsl : d.sliceSizes 0 = 1 := d.slice_collapsed 0 hc
    -- the result's only batch axis is axis 0: a batch axis is neither offset axis 1 nor offset axis 2
    have hbd : ∀ X : Fin 3, X ∈ d.batchDims → X = 0 := by
      intro X hX
      have h1 := (List.mem_filter.1 hX).2
      rw [hoff] at h1
      have h2 : X ≠ 1 ∧ X ≠ 2 := by simpa using h1
      apply Fin.ext
      have h3 : X.val ≠ 1 := fun h => h2.1 (Fin.ext h)
      have h4 : X.val ≠ 2 := fun h => h2.2 (Fin.ext h)
      have := X.isLt
      show X.val = 0
      omega
    -- the start index of result entry (n, a, b) is read at (n, 0): the batch coordinate n on axis 0, component 0 on
    -- the index vector's axis 1
    have hsi : d.siIdx (ix3 n a b) ⟨List.idxOf (0 : Fin 3) d.startIndexMap, List.idxOf_lt_length_iff.2 hm⟩
        = ix2 n (0 : Fin 1) := by
      funext q
      match q with
      | ⟨0, _⟩ =>
        unfold GatherDims.siIdx
        rw [dif_neg (by rw [hivd]; simp)]
        unfold GatherDims.siCoord
        apply Fin.ext
        simp only [Fin.val_cast]
        have e0 : ∀ X : Fin 3, X = 0 → ((ix3 n a b) X).val = n.val := fun X h => by subst h; rfl
        exact e0 _ (hbd _ (List.getElem_mem _))
      | ⟨1, _⟩ =>
        unfold GatherDims.siIdx
        rw [dif_pos (by rw [hivd])]
        apply Fin.ext
        show List.idxOf (0 : Fin 3) d.startIndexMap = 0
        rw [hsim]; simp
    rw [GatherDims.offCoord_eq_zero _ _ _ hk, Nat.add_zero]
    unfold GatherDims.start
    rw [dif_pos hm, hsi]
    show min (idx (ix2 n (0 : Fin 1))).toInt.toNat (256 - d.sliceSizes 0) = min (idx (ix2 n (0 : Fin 1))).toInt.toNat (256 - 1)
    rw [hsl]
  | ⟨1, _⟩ =>
    -- the first kept axis: not start-indexed (start 0), read through the result's first offset axis 1, so the
    -- operand index is a
    show d.start (ix3 n a b) idx (1 : Fin 3) + d.offCoord (ix3 n a b) (1 : Fin 3) = a.val
    have hm : (1 : Fin 3) ∉ d.startIndexMap := by
      rw [hsim]; exact fun h => h10 (List.mem_singleton.1 h)
    have hk : (1 : Fin 3) ∈ d.sKept := by
      rw [GatherDims.mem_sKept, hcoll]
      exact ⟨fun h => h10 (List.mem_singleton.1 h), hb 1⟩
    unfold GatherDims.start
    rw [dif_neg hm, Nat.zero_add]
    unfold GatherDims.offCoord
    rw [dif_pos hk]
    have e1 : ∀ X : Fin 3, X = 1 → ((ix3 n a b) X).val = a.val := fun X h => by subst h; rfl
    exact e1 _ ((key _ _ _ _ _ hoff).1 (by rw [hsk]; rfl))
  | ⟨2, _⟩ =>
    -- the second kept axis: likewise through the result's second offset axis 2, so the operand index is b
    show d.start (ix3 n a b) idx (2 : Fin 3) + d.offCoord (ix3 n a b) (2 : Fin 3) = b.val
    have hm : (2 : Fin 3) ∉ d.startIndexMap := by
      rw [hsim]; exact fun h => h20 (List.mem_singleton.1 h)
    have hk : (2 : Fin 3) ∈ d.sKept := by
      rw [GatherDims.mem_sKept, hcoll]
      exact ⟨fun h => h20 (List.mem_singleton.1 h), hb 2⟩
    unfold GatherDims.start
    rw [dif_neg hm, Nat.zero_add]
    unfold GatherDims.offCoord
    rw [dif_pos hk]
    have e2 : ∀ X : Fin 3, X = 2 → ((ix3 n a b) X).val = b.val := fun X h => by subst h; rfl
    exact e2 _ ((key _ _ _ _ _ hoff).2 (by rw [hsk]; rfl))

/-- The positions' mask laid along the first axis of the rank-3 result reads, at (n, a, b), the mask at n. -/
theorem bcast_mask_apply {α : Type} {A B : Nat} (hb5 : R.BroadcastsInDim ⟨3, ![256, A, B]⟩ (![0] : Fin 1 → Fin 3))
    (v : R.Idx → α) (n : Fin 256) (a : Fin A) (b : Fin B) :
    broadcastInDim ⟨3, ![256, A, B]⟩ ![0] hb5 v (ix3 n a b) = v (ix1 n) := by
  simp only [broadcastInDim]
  congr 1
  funext e
  have he : e = 0 := Subsingleton.elim _ _
  subst he
  apply Fin.ext
  split
  · next h1 => exact absurd h1 (by decide)
  · rfl

/-- Slabs of a rank-3 table taken at row numbers: entry (n, a, b) is the table's at (p n, a, b). -/
theorem take3_apply {α : Type} {A B : Nat} (d : GatherDims ⟨3, ![256, A, B]⟩ C ⟨3, ![256, A, B]⟩)
    (hoff : d.offsetDims = [1, 2]) (hcoll : d.collapsedSliceDims = [0]) (hob : d.operandBatchingDims = [])
    (hsim : d.startIndexMap = [0]) (hivd : d.indexVectorDim = 1)
    (hb5 : R.BroadcastsInDim ⟨3, ![256, A, B]⟩ (![0] : Fin 1 → Fin 3))
    (hb6 : S0.BroadcastsInDim ⟨3, ![256, A, B]⟩ (![] : Fin 0 → Fin 3))
    (x : (⟨3, ![256, A, B]⟩ : Shape).Idx → α) (c : IVec C 32) (mask : IVec R 1) (fill : S0.Idx → α)
    (p : Fin 256 → Fin 256) (hc : ∀ n : Fin 256, c (ix2 n (0 : Fin 1)) = BitVec.ofNat 32 (p n).val)
    (hm : ∀ n : Fin 256, mask (ix1 n) = 1#1) (n : Fin 256) (a : Fin A) (b : Fin B) :
    select (broadcastInDim ⟨3, ![256, A, B]⟩ ![0] hb5 mask) (Host.gather d x c)
      (broadcastInDim ⟨3, ![256, A, B]⟩ ![] hb6 fill) (ix3 n a b) = x (ix3 (p n) a b) := by
  -- the mask is 1 at position n, so the select takes the gathered entry
  rw [select_apply, bcast_mask_apply, hm n, select_one, gather_slabs_apply d hoff hcoll hob hsim hivd]
  -- the start index of position n is the row number p n, which the clamp keeps
  congr 2
  apply Fin.ext
  show min (c (ix2 n (0 : Fin 1))).toInt.toNat (256 - 1) = (p n).val
  rw [hc n, clamp_row]

/-- Entries of a vector taken at row numbers: entry n is the vector's at p n. -/
theorem take1_apply {α : Type} (d : GatherDims R C R)
    (hoff : d.offsetDims = []) (hcoll : d.collapsedSliceDims = [0]) (hob : d.operandBatchingDims = [])
    (hsim : d.startIndexMap = [0]) (hivd : d.indexVectorDim = 1)
    (x : R.Idx → α) (c : IVec C 32) (mask : IVec R 1) (fill : R.Idx → α)
    (p : Fin 256 → Fin 256) (hc : ∀ n : Fin 256, c (ix2 n (0 : Fin 1)) = BitVec.ofNat 32 (p n).val)
    (hm : ∀ n : Fin 256, mask (ix1 n) = 1#1) (n : Fin 256) :
    select mask (Host.gather d x c) fill (ix1 n) = x (ix1 (p n)) := by
  -- the mask is 1 at position n, so the select takes the gathered entry
  rw [select_apply, hm n, select_one, ← ofFin_eq n,
    StableHlo.Predicate.gather_take d hcoll hob hsim hivd x c n (by decide), ← ofFin_eq (p n)]
  -- the start index of position n is the row number p n, which the clamp keeps
  congr 2
  apply Fin.ext
  show min (c (StableHlo.Predicate.ixP n)).toInt.toNat (256 - 1) = (p n).val
  rw [ixP_eq, hc n, clamp_row]

end Cert.LibTake
-- ==== Proof.KHostPre.lean ====
/-
  What the host computes before the kernel is launched, read entry by entry. The categories are argsorted (a stable
  sort by signed "less than", carrying the positions): sorted position k holds source position σ k. That vector of
  positions is argsorted again, which gives the inverse permutation. The inputs and the categories are then taken at
  the sorted positions, with out-of-range positions filled; as every position σ k is a row number, nothing is filled:
  the sorted inputs hold sample σ n at row n, and the sorted categories hold category σ n at entry n.
-/
import proofs.«428378_j18674517803359_1_alg».proof.Proof.Gen.Kernel.Frame
import proofs.«428378_j18674517803359_1_alg».proof.Proof.LibTRef
import proofs.«428378_j18674517803359_1_alg».proof.Proof.LibArgsort
import proofs.«428378_j18674517803359_1_alg».proof.Proof.LibTake
import Idealize.ShloMosaic.Lib.StableHlo.Run
import Idealize.ShloMosaic.Lib.ValueIdx

set_option maxRecDepth 16384

noncomputable section

namespace Cert.Kernel.HostPre

open Idealize.ShloMosaic Idealize.ShloMosaic.TcCoe Idealize.SL.Sem Idealize.ShloMosaic.ValueIdx
open Cert.Kernel Cert.Kernel.Gen

variable {F : FTy → Type} [FloatOps F]
variable (m : (ℓ : Loc nD τ sig) → Buf (Elt F) ℓ)

/-- The categories in core c's launch memory. -/
abbrev cats (c : Dev nD) : IVec S256 32 := m ((c : Thread nD τ).loc main_arg1)

/-- The argsort of the categories, as words. -/
def sortIdx (c : Dev nD) : IVec S256 32 :=
  (Host.sort2 S256 0 comparator_i32_i32_d0 (cats m c) (iotaInDim S256 32 0)).2

/-- The argsort of that argsort, as words. -/
def invIdx (c : Dev nD) : IVec S256 32 :=
  (Host.sort2 S256 0 comparator_i32_i32_d0 (sortIdx m c) (iotaInDim S256 32 0)).2

/-- Sorted position k holds the category of source position σ k. -/
def σ (c : Dev nD) : Fin 256 → Fin 256 := Cert.LibArgsort.src (cats m c)

/-- The second argsort's permutation. -/
def σinv (c : Dev nD) : Fin 256 → Fin 256 := Cert.LibArgsort.src (sortIdx m c)

/-- A rank-1 index in its two spellings. -/
theorem ix1_eq_ofFin (k : Fin 256) : (ix1 k : S256.Idx) = Shape.Idx.ofFin k := by
  funext a
  match a with
  | ⟨0, _⟩ => rfl

theorem sortIdx_apply (c : Dev nD) (k : Fin 256) : sortIdx m c (ix1 k) = BitVec.ofNat 32 (σ m c k).val := by
  -- the comparator is signed "less than" on the keys, so the argsort's entry is the source position as a word
  unfold sortIdx σ
  exact Cert.LibArgsort.argsort_apply (cats m c) comparator_i32_i32_d0 (fun _ _ => rfl) (ix1 k)

theorem invIdx_apply (c : Dev nD) (k : Fin 256) : invIdx m c (ix1 k) = BitVec.ofNat 32 (σinv m c k).val := by
  -- the same, with the first argsort as the keys
  unfold invIdx σinv
  exact Cert.LibArgsort.argsort_apply (sortIdx m c) comparator_i32_i32_d0 (fun _ _ => rfl) (ix1 k)

/-- The second permutation inverts the first. -/
theorem σ_σinv (c : Dev nD) (i : Fin 256) : σ m c (σinv m c i) = i := by
  -- the first argsort holds the positions σ k as words below 2^31, so sorting it again orders by σ k: the inverse
  unfold σ σinv
  refine Cert.LibArgsort.src_src (by norm_num) (cats m c) (sortIdx m c) (fun k => ?_) i
  rw [← ix1_eq_ofFin]
  exact sortIdx_apply m c k

/-- The wrapped sorted positions as a column, and the test that they are row numbers. -/
abbrev sortCol (c : Dev nD) : IVec S256x1 32 := Cert.LibTake.col bcast_S_S256 bcast_S256_S256x1_0 (sortIdx m c)
abbrev sortInb (c : Dev nD) : IVec S256 1 :=
  Cert.LibTake.inb bcast_S_S256x1 bcast_S1_S1x1_1 bcast_S1x1_S256x1_0_1 reducesTo_S256x1_S256_d1 h_S_ (sortCol m c)
/-- The same for the inverse positions (used after the kernel). -/
abbrev invCol (c : Dev nD) : IVec S256x1 32 := Cert.LibTake.col bcast_S_S256 bcast_S256_S256x1_0 (invIdx m c)
abbrev invInb (c : Dev nD) : IVec S256 1 :=
  Cert.LibTake.inb bcast_S_S256x1 bcast_S1_S1x1_1 bcast_S1x1_S256x1_0_1 reducesTo_S256x1_S256_d1 h_S_ (invCol m c)

set_option maxHeartbeats 4000000 in
/-- When the kernel is launched the buffer of the first argsort holds it, -/
theorem V_v0 (c : Dev nD) : (V m c main_v0 : IVec S256 32) = sortIdx m c := by
  -- the launch valuation is the launch memory folded over the host operations in order; read at this buffer, the fold
  -- leaves the chain of operations that produced it, each operand carried from its buffer's type and each result
  -- carried back, and the two transports cancel
  dsimp only [Gen.V, Gen.V0]
  simp only [Gen.hostOps0, Gen.hostOps0_1, Gen.hostOps0_2, Gen.hostOps0_3, List.flatten_cons, List.flatten_nil, List.append_nil, List.cons_append, List.nil_append]
  after_results
  simp only [Cert.LibTRef.ofBuf_toBuf]
  -- what is left is the argsort of the categories, by name
  unfold sortIdx
  rfl

set_option maxHeartbeats 4000000 in
/-- the buffer of the second holds it, -/
theorem V_v1 (c : Dev nD) : (V m c main_v1 : IVec S256 32) = invIdx m c := by
  -- the launch valuation is the launch memory folded over the host operations in order; read at this buffer, the fold
  -- leaves the chain of operations that produced it, each operand carried from its buffer's type and each result
  -- carried back, and the two transports cancel
  dsimp only [Gen.V, Gen.V0]
  simp only [Gen.hostOps0, Gen.hostOps0_1, Gen.hostOps0_2, Gen.hostOps0_3, List.flatten_cons, List.flatten_nil, List.append_nil, List.cons_append, List.nil_append]
  after_results
  simp only [Cert.LibTRef.ofBuf_toBuf]
  -- what is left is the argsort of the argsort of the categories, by name
  unfold invIdx sortIdx
  rfl

set_option maxHeartbeats 4000000 in
/-- the sorted inputs are the inputs taken at the sorted positions, -/
theorem V_v2 (c : Dev nD) : (V m c main_v2 : Vec F S256x32x1024 .f32)
    = select (broadcastInDim S256x32x1024 ![0] bcast_S256_S256x32x1024_0 (sortInb m c))
        (Host.gather gather_S256x32x1024_S256x1_S256x32x1024_12_0_n_n_0_1_1321024 (m ((c : Thread nD τ).loc main_arg0)) (sortCol m c))
        (broadcastInDim S256x32x1024 ![] bcast_S_S256x32x1024 (constant S_ .f32 0x7FC00000#32)) := by
  -- the launch valuation is the launch memory folded over the host operations in order; read at this buffer, the fold
  -- leaves the chain of operations that produced it, each operand carried from its buffer's type and each result
  -- carried back, and the two transports cancel
  dsimp only [Gen.V, Gen.V0]
  simp only [Gen.hostOps0, Gen.hostOps0_1, Gen.hostOps0_2, Gen.hostOps0_3, List.flatten_cons, List.flatten_nil, List.append_nil, List.cons_append, List.nil_append]
  after_results
  simp only [Cert.LibTRef.ofBuf_toBuf]
  -- the chain is the take as it is lowered: the wrapped positions as a column, their range test reduced along the
  -- column and laid along the rows, the gather, and the fill; the right-hand side is the same chain under its names
  dsimp only [sortCol, sortInb, Cert.LibTake.col, Cert.LibTake.inb]
  unfold sortIdx
  rfl

set_option maxHeartbeats 4000000 in
/-- and the sorted categories the categories taken at the sorted positions. -/
theorem V_v3 (c : Dev nD) : (V m c main_v3 : IVec S256 32)
    = select (sortInb m c) (Host.gather gather_S256_S256x1_S256_n_0_n_n_0_1_1 (cats m c) (sortCol m c))
        (broadcastInDim S256 ![] bcast_S_S256 (constantI S_ 32 2147483648#32)) := by
  -- the launch valuation is the launch memory folded over the host operations in order; read at this buffer, the fold
  -- leaves the chain of operations that produced it, each operand carried from its buffer's type and each result
  -- carried back, and the two transports cancel
  dsimp only [Gen.V, Gen.V0]
  simp only [Gen.hostOps0, Gen.hostOps0_1, Gen.hostOps0_2, Gen.hostOps0_3, List.flatten_cons, List.flatten_nil, List.append_nil, List.cons_append, List.nil_append]
  after_results
  simp only [Cert.LibTRef.ofBuf_toBuf]
  -- the chain is the take as it is lowered: the wrapped positions as a column, their range test reduced along the
  -- column, the gather, and the fill; the right-hand side is the same chain under its names
  dsimp only [sortCol, sortInb, Cert.LibTake.col, Cert.LibTake.inb]
  unfold sortIdx
  rfl

/-- The wrapped sorted positions, as a column, are the row numbers σ n: none is negative, so none is wrapped, -/
theorem sortCol_apply (c : Dev nD) (n : Fin 256) : sortCol m c (ix2 n (0 : Fin 1)) = BitVec.ofNat 32 (σ m c n).val :=
  Cert.LibTake.col_apply bcast_S_S256 bcast_S256_S256x1_0 (sortIdx m c) (σ m c) (sortIdx_apply m c) n

/-- and every one of them passes the range test. -/
theorem sortInb_apply (c : Dev nD) (n : Fin 256) : sortInb m c (ix1 n) = 1#1 :=
  Cert.LibTake.inb_apply bcast_S_S256x1 bcast_S1_S1x1_1 bcast_S1x1_S256x1_0_1 reducesTo_S256x1_S256_d1 h_S_
    (sortCol m c) (σ m c) (sortCol_apply m c) n

/-- Row n of the sorted inputs is sample σ n. -/
theorem V_v2_apply (c : Dev nD) (n : Fin 256) (a : Fin 32) (b : Fin 1024) :
    (V m c main_v2 : Vec F S256x32x1024 .f32) (ix3 n a b) = m ((c : Thread nD τ).loc main_arg0) (ix3 (σ m c n) a b) := by
  -- the test holds at row n, so the select keeps the gathered slab, and the gather reads row σ n unclamped
  rw [V_v2]
  exact Cert.LibTake.take3_apply gather_S256x32x1024_S256x1_S256x32x1024_12_0_n_n_0_1_1321024 rfl rfl rfl rfl rfl
    bcast_S256_S256x32x1024_0 bcast_S_S256x32x1024 (m ((c : Thread nD τ).loc main_arg0)) (sortCol m c) (sortInb m c)
    (constant S_ .f32 0x7FC00000#32) (σ m c) (sortCol_apply m c) (sortInb_apply m c) n a b

/-- Entry n of the sorted categories is category σ n. -/
theorem V_v3_apply (c : Dev nD) (n : Fin 256) :
    (V m c main_v3 : IVec S256 32) (ix1 n) = cats m c (ix1 (σ m c n)) := by
  -- the test holds at entry n, so the select keeps the gathered entry, and the gather reads entry σ n unclamped
  rw [V_v3]
  exact Cert.LibTake.take1_apply gather_S256_S256x1_S256_n_0_n_n_0_1_1 rfl rfl rfl rfl rfl
    (cats m c) (sortCol m c) (sortInb m c) (broadcastInDim S256 ![] bcast_S_S256 (constantI S_ 32 2147483648#32))
    (σ m c) (sortCol_apply m c) (sortInb_apply m c) n

end Cert.Kernel.HostPre

end
-- ==== Proof.PreDecode.lean ====
/-
  What the precondition says of the categories: each of the 256 is at least 0 and below 32 as a signed word, hence
  below 32 as a natural number.
-/
import proofs.«428378_j18674517803359_1_alg».proof.Pre_finite_inputs
import proofs.«428378_j18674517803359_1_alg».proof.Proof.Gen.Pre_finite_inputs
import Idealize.ShloMosaic.Lib.ReduceAll
import Idealize.ShloMosaic.Lib.ValueIdx
import Idealize.ShloMosaic.Lib.StableHlo.Predicate

namespace Cert.PreDecode

open Idealize.ShloMosaic Idealize.ShloMosaic.ValueIdx

variable {F : FTy → Type} [FloatOps F] [Cert.Pre_finite_inputs.Facts]

/-- The scalar shape has one index. -/
instance : Subsingleton Cert.Pre_finite_inputs.S_.Idx := ⟨fun a b => funext fun d => d.elim0⟩

/-- A 32-bit word that is at least 0 and below 32 read as a signed number is below 32 read as a natural number:
    the signed reading of a word is its value or its value less 2 ^ 32, and the second is negative. -/
theorem word_lt (w : BitVec 32) (h0 : IntOp.cmpi .sge w 0#32 = 1#1) (h1 : IntOp.cmpi .slt w 32#32 = 1#1) :
    w.toNat < 32 := by
  rw [IntOp.cmpi_sge] at h0
  rw [IntOp.cmpi_slt] at h1
  have e := BitVec.toInt_eq_toNat_cond w
  have e0 : (0#32).toInt = 0 := by decide
  have e32 : (32#32).toInt = 32 := by decide
  have hw := w.isLt
  rw [e0] at h0
  rw [e32] at h1
  omega

/-- Under the precondition every category is a natural number below 32. -/
theorem cat_lt (x : FVec F Cert.Pre_finite_inputs.S256x32x1024 .f32) (cat : IVec Cert.Pre_finite_inputs.S256 32)
    (W : FVec F Cert.Pre_finite_inputs.S32x1024x1024 .f32) (b : FVec F Cert.Pre_finite_inputs.S32x1024 .f32)
    (h : Cert.Pre_finite_inputs.fn (F := F) x cat W b = fun _ => 1#1) (i : Fin 256) :
    (cat (ix1 i)).toNat < 32 := by
  have e := congrFun h ix0
  dsimp only [Cert.Pre_finite_inputs.fn, Cert.Pre_finite_inputs.fn_part1] at e
  obtain ⟨e4, elt⟩ := IntOp.andi_eq_one.1 e
  obtain ⟨-, ege⟩ := IntOp.andi_eq_one.1 e4
  -- each reduction by `and` over all 256 positions is 1, so its operand is 1 at position i; there the operand compares
  -- the category with the constant, which a broadcast scalar reads at every position
  have hge : IntOp.cmpi .sge (cat (ix1 i)) 0#32 = 1#1 := Host.reduce_andi_all _ _ _ _ ix0 ege (ix1 i)
  have hlt : IntOp.cmpi .slt (cat (ix1 i)) 32#32 = 1#1 := Host.reduce_andi_all _ _ _ _ ix0 elt (ix1 i)
  exact word_lt _ hge hlt

end Cert.PreDecode
-- ==== Proof.KOkHyps.lean ====
/-
  The two side conditions of the kernel's run, from the precondition. The weight window's block at grid point t is the
  slab of category word t of the sorted categories; the body loads the bias row at the same word. Entry t of the
  sorted categories is one of the categories (category σ t), and the precondition puts every category in 0 … 31: so the
  slab lies inside the 32 slabs of weights, and the row inside the 32 bias rows.
-/
import proofs.«428378_j18674517803359_1_alg».proof.Proof.KHostPre
import proofs.«428378_j18674517803359_1_alg».proof.Proof.PreDecode
import Mathlib.Tactic.FinCases

set_option maxRecDepth 16384

noncomputable section

namespace Cert.Kernel.OkHyps

open Idealize.ShloMosaic Idealize.ShloMosaic.TcCoe Idealize.SL.Sem Idealize.ShloMosaic.ValueIdx
open Cert.Kernel Cert.Kernel.Gen Cert.Kernel.HostPre

variable {F : FTy → Type} [FloatOps F] [hP : Cert.Pre_finite_inputs.Facts]
variable (m : (ℓ : Loc nD τ sig) → Buf (Elt F) ℓ)

/-- The precondition of the launch memory: the printed predicate of the four argument arrays is all ones, on every core. -/
abbrev Pre : Prop :=
  ∀ c : Dev nD, Cert.Pre_finite_inputs.fn (F := F) (m ((c.tc : Thread nD τ).loc main_arg0)) (m ((c.tc : Thread nD τ).loc main_arg1))
    (m ((c.tc : Thread nD τ).loc main_arg2)) (m ((c.tc : Thread nD τ).loc main_arg3)) = (fun _ => 1#1)

/-! ## The table is the sorted categories -/

/-- The one prefetched table is the buffer of the sorted categories, as core 0 holds it when the kernel starts. -/
theorem tbl_zero : (tbl m 0 : IVec S256 32) = (V m 0 main_v3 : IVec S256 32) := rfl

/-- Under the precondition every category word of the table the kernel prefetches is below 32. -/
theorem tbl_lt (h : Pre m) (n : Fin 256) : ((tbl m 0 : IVec S256 32) (ix1 n)).toNat < 32 := by
  -- entry n is category σ n, and the precondition bounds every category
  rw [tbl_zero, V_v3_apply]
  exact Cert.PreDecode.cat_lt _ _ _ _ (h 0) _

/-! ## Reading one word of a [256] table, for any contents -/

/-- A one-element rectangle of the [256] table that starts at k has its one element at index k: its first (and only)
    position is 0 on the axis, and the strides are 1, so the index is off 0 + 1 * 0. -/
theorem unit_idx (k : Fin 256) (off : Fin 1 → Nat) (hoff : off 0 = k.val) (inb : ∀ a, off a + S1.size a ≤ S256.size a)
    (h1 : 0 < S1.numel) : (Rect.unit (s := S256) off S1.size inb).idx (Shape.Idx.first h1) = ix1 k := by
  rw [eq_ix1 ((Rect.unit (s := S256) off S1.size inb).idx (Shape.Idx.first h1))]
  refine congrArg ix1 (Fin.ext ?_)
  rw [LoadRect.idx_apply]
  have z : ((Shape.Idx.first h1 : S1.Idx) 0).val = 0 := rfl
  have s : (Rect.unit (s := S256) off S1.size inb).stride 0 = 1 := rfl
  have o : (Rect.unit (s := S256) off S1.size inb).off 0 = off 0 := rfl
  rw [z, s, o, hoff, Nat.mul_zero, Nat.add_zero]

/-- Reading the whole table's memref through that rectangle, at any contents f, gives f at index k. -/
theorem read_unit (f : IVec S256 32) (k : Fin 256) (off : Fin 1 → Nat) (hoff : off 0 = k.val)
    (inb : ∀ a, off a + S1.size a ≤ S256.size a) (h1 : 0 < S1.numel) :
    tbM0_0.view.readAt (Elt F) (Rect.unit (s := S256) off S1.size inb).toLoadRect f (Shape.Idx.first h1) = f (ix1 k) :=
  congrArg f (unit_idx k off hoff inb h1)

/-- On the grid of one axis of 256 points, point t has coordinate t. -/
theorem coord_val (t : Fin grid0.N) : ((grid0.coords t) 0).val = t.val := by
  have ht : t.val < 256 := Nat.lt_of_lt_of_eq t.isLt N_0
  have e : ((grid0.coords t) 0).val = t.val / grid0.stride 0 % grid0.bound 0 := rfl
  have s : grid0.stride 0 = 1 := by decide
  have b : grid0.bound 0 = 256 := rfl
  rw [e, s, b, Nat.div_one, Nat.mod_eq_of_lt ht]

/-- The offset the body computes at grid point t is t: the coordinate is below 256, so it is unchanged as a 32-bit word. -/
theorem off1_val (t : Fin grid0.N) : k0_off1 (grid0.coords t) 0 = t.val := by
  have ht : t.val < 256 := Nat.lt_of_lt_of_eq t.isLt N_0
  have e : k0_off1 (grid0.coords t) 0 = (BitVec.ofNat 32 ((grid0.coords t) 0).val).toNat := rfl
  rw [e, coord_val t, BitVec.toNat_ofNat]
  exact Nat.mod_eq_of_lt (by omega)

/-- The word the body reads at grid point t is entry t of the table. -/
theorem word_eq (t : Fin grid0.N) :
    tbM0_0.view.readAt (Elt F) (Rect.unit (s := S256) (k0_off1 (grid0.coords t)) S1.size (k0_off1_inb (grid0.coords t))).toLoadRect (tbl m 0) (Shape.Idx.first (numel1_S1.symm ▸ Nat.one_pos))
      = (tbl m 0 : IVec S256 32) (ix1 (⟨t.val, Nat.lt_of_lt_of_eq t.isLt N_0⟩ : Fin 256)) :=
  read_unit (tbl m 0) ⟨t.val, Nat.lt_of_lt_of_eq t.isLt N_0⟩ _ (off1_val t) _ _

/-! ## The weight window's block, for any table contents whose words are below 32 -/

/-- The weight window's index map reads one word of the table and returns (that word, 0, 0). -/
theorem transform_1_eq (pf : pre0.Contents (Elt F)) (i : grid0.Coords) :
    ∃ x : S256.Idx, cc0_transform_1 k0_off1_inb numel1_S1 pf i = ![((pf 0 : IVec S256 32) x).toNat, 0, 0] :=
  ⟨_, rfl⟩

/-- If every word of the table is below 32, the block (word, 0, 0) of extents [1, 1024, 1024] lies inside the
    [32, 1024, 1024] weights: word + 1 ≤ 32 on the first axis, and the other two axes are taken whole. -/
theorem ok_of_lt (pf : pre0.Contents (Elt F)) (hpf : ∀ x : S256.Idx, ((pf 0 : IVec S256 32) x).toNat < 32) : ok0 pf := by
  intro i
  obtain ⟨x, e⟩ := transform_1_eq pf i
  have hx := hpf x
  refine ⟨fun a => ?_, Or.inl rfl⟩
  rw [e]
  fin_cases a <;> simp [S1x1024x1024, S32x1024x1024] <;> omega

/-- The weight window's block lies inside the weights at every grid point. -/
theorem ok_of_pre (h : Pre m) : Ok m :=
  ok_of_lt (tbl m) fun x => (eq_ix1 x) ▸ tbl_lt m h (x 0)

/-! ## The bias row -/

/-- The check the body assumes of the word it loaded holds when the word is below 32: the row (word, 0) of extents
    [1, 1024] lies inside the [32, 1024] bias table. -/
theorem chk_of_lt (w : BitVec 32) (hw : w.toNat < 32) : k0_chk1 w := by
  intro a
  have e : k0_off2 w = ![w.toNat, 0] := rfl
  rw [e]
  fin_cases a <;> simp [S1x1024, S32x1024] <;> omega

/-- The bias row the body loads lies inside the bias table at every grid point. -/
theorem hyps_of_pre (h : Pre m) (hO : Ok m) : Hyps m hO :=
  Hyps.of fun c t => chk_of_lt _ (by rw [word_eq m t]; exact tbl_lt m h _)

end Cert.Kernel.OkHyps

end
-- ==== Proof.HostPre.lean ====
/-
  What the host computes before the kernel is launched, read entry by entry. The categories are argsorted (a stable
  sort by signed "less than", carrying the positions): sorted position k holds source position σ k. That vector of
  positions is argsorted again, which gives the inverse permutation. The inputs and the categories are then taken at
  the sorted positions, with out-of-range positions filled; as every position σ k is a row number, nothing is filled:
  the sorted inputs hold sample σ n at row n, and the sorted categories hold category σ n at entry n.
-/
import proofs.«428378_j18674517803359_1_alg».proof.Proof.Gen.KernelIdeal.Frame
import proofs.«428378_j18674517803359_1_alg».proof.Proof.LibTRef
import proofs.«428378_j18674517803359_1_alg».proof.Proof.LibArgsort
import proofs.«428378_j18674517803359_1_alg».proof.Proof.LibTake
import Idealize.ShloMosaic.Lib.StableHlo.Run
import Idealize.ShloMosaic.Lib.ValueIdx

set_option maxRecDepth 16384

noncomputable section

namespace Cert.KernelIdeal.HostPre

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The categories in core c's launch memory. -/
abbrev cats (c : Dev nD) : IVec S256 32 := m ((c : Thread nD τ).loc main_arg1)

/-- The argsort of the categories, as words. -/
def sortIdx (c : Dev nD) : IVec S256 32 :=
  (Host.sort2 S256 0 comparator_i32_i32_d0 (cats m c) (iotaInDim S256 32 0)).2

/-- The argsort of that argsort, as words. -/
def invIdx (c : Dev nD) : IVec S256 32 :=
  (Host.sort2 S256 0 comparator_i32_i32_d0 (sortIdx m c) (iotaInDim S256 32 0)).2

/-- Sorted position k holds the category of source position σ k. -/
def σ (c : Dev nD) : Fin 256 → Fin 256 := Cert.LibArgsort.src (cats m c)

/-- The second argsort's permutation. -/
def σinv (c : Dev nD) : Fin 256 → Fin 256 := Cert.LibArgsort.src (sortIdx m c)

/-- A rank-1 index in its two spellings. -/
theorem ix1_eq_ofFin (k : Fin 256) : (ix1 k : S256.Idx) = Shape.Idx.ofFin k := by
  funext a
  match a with
  | ⟨0, _⟩ => rfl

theorem sortIdx_apply (c : Dev nD) (k : Fin 256) : sortIdx m c (ix1 k) = BitVec.ofNat 32 (σ m c k).val := by
  -- the comparator is signed "less than" on the keys, so the argsort's entry is the source position as a word
  unfold sortIdx σ
  exact Cert.LibArgsort.argsort_apply (cats m c) comparator_i32_i32_d0 (fun _ _ => rfl) (ix1 k)

theorem invIdx_apply (c : Dev nD) (k : Fin 256) : invIdx m c (ix1 k) = BitVec.ofNat 32 (σinv m c k).val := by
  -- the same, with the first argsort as the keys
  unfold invIdx σinv
  exact Cert.LibArgsort.argsort_apply (sortIdx m c) comparator_i32_i32_d0 (fun _ _ => rfl) (ix1 k)

/-- The second permutation inverts the first. -/
theorem σ_σinv (c : Dev nD) (i : Fin 256) : σ m c (σinv m c i) = i := by
  -- the first argsort holds the positions σ k as words below 2^31, so sorting it again orders by σ k: the inverse
  unfold σ σinv
  refine Cert.LibArgsort.src_src (by norm_num) (cats m c) (sortIdx m c) (fun k => ?_) i
  rw [← ix1_eq_ofFin]
  exact sortIdx_apply m c k

/-- The wrapped sorted positions as a column, and the test that they are row numbers. -/
abbrev sortCol (c : Dev nD) : IVec S256x1 32 := Cert.LibTake.col bcast_S_S256 bcast_S256_S256x1_0 (sortIdx m c)
abbrev sortInb (c : Dev nD) : IVec S256 1 :=
  Cert.LibTake.inb bcast_S_S256x1 bcast_S1_S1x1_1 bcast_S1x1_S256x1_0_1 reducesTo_S256x1_S256_d1 h_S_ (sortCol m c)
/-- The same for the inverse positions (used after the kernel). -/
abbrev invCol (c : Dev nD) : IVec S256x1 32 := Cert.LibTake.col bcast_S_S256 bcast_S256_S256x1_0 (invIdx m c)
abbrev invInb (c : Dev nD) : IVec S256 1 :=
  Cert.LibTake.inb bcast_S_S256x1 bcast_S1_S1x1_1 bcast_S1x1_S256x1_0_1 reducesTo_S256x1_S256_d1 h_S_ (invCol m c)

set_option maxHeartbeats 4000000 in
/-- When the kernel is launched the buffer of the first argsort holds it, -/
theorem V_v0 (c : Dev nD) : (V m c main_v0 : IVec S256 32) = sortIdx m c := by
  -- the launch valuation is the launch memory folded over the host operations in order; read at this buffer, the fold
  -- leaves the chain of operations that produced it, each operand carried from its buffer's type and each result
  -- carried back, and the two transports cancel
  dsimp only [Gen.V, Gen.V0]
  simp only [Gen.hostOps0, Gen.hostOps0_1, Gen.hostOps0_2, Gen.hostOps0_3, List.flatten_cons, List.flatten_nil, List.append_nil, List.cons_append, List.nil_append]
  after_results
  simp only [Cert.LibTRef.ofBuf_toBuf]
  -- what is left is the argsort of the categories, by name
  unfold sortIdx
  rfl

set_option maxHeartbeats 4000000 in
/-- the buffer of the second holds it, -/
theorem V_v1 (c : Dev nD) : (V m c main_v1 : IVec S256 32) = invIdx m c := by
  -- the launch valuation is the launch memory folded over the host operations in order; read at this buffer, the fold
  -- leaves the chain of operations that produced it, each operand carried from its buffer's type and each result
  -- carried back, and the two transports cancel
  dsimp only [Gen.V, Gen.V0]
  simp only [Gen.hostOps0, Gen.hostOps0_1, Gen.hostOps0_2, Gen.hostOps0_3, List.flatten_cons, List.flatten_nil, List.append_nil, List.cons_append, List.nil_append]
  after_results
  simp only [Cert.LibTRef.ofBuf_toBuf]
  -- what is left is the argsort of the argsort of the categories, by name
  unfold invIdx sortIdx
  rfl

set_option maxHeartbeats 4000000 in
/-- the sorted inputs are the inputs taken at the sorted positions, -/
theorem V_v2 (c : Dev nD) : (V m c main_v2 : Vec F S256x32x1024 .f32)
    = select (broadcastInDim S256x32x1024 ![0] bcast_S256_S256x32x1024_0 (sortInb m c))
        (Host.gather gather_S256x32x1024_S256x1_S256x32x1024_12_0_n_n_0_1_1321024 (m ((c : Thread nD τ).loc main_arg0)) (sortCol m c))
        (broadcastInDim S256x32x1024 ![] bcast_S_S256x32x1024 (constant S_ .f32 0x7FC00000#32)) := by
  -- the launch valuation is the launch memory folded over the host operations in order; read at this buffer, the fold
  -- leaves the chain of operations that produced it, each operand carried from its buffer's type and each result
  -- carried back, and the two transports cancel
  dsimp only [Gen.V, Gen.V0]
  simp only [Gen.hostOps0, Gen.hostOps0_1, Gen.hostOps0_2, Gen.hostOps0_3, List.flatten_cons, List.flatten_nil, List.append_nil, List.cons_append, List.nil_append]
  after_results
  simp only [Cert.LibTRef.ofBuf_toBuf]
  -- the chain is the take as it is lowered: the wrapped positions as a column, their range test reduced along the
  -- column and laid along the rows, the gather, and the fill; the right-hand side is the same chain under its names
  dsimp only [sortCol, sortInb, Cert.LibTake.col, Cert.LibTake.inb]
  unfold sortIdx
  rfl

set_option maxHeartbeats 4000000 in
/-- and the sorted categories the categories taken at the sorted positions. -/
theorem V_v3 (c : Dev nD) : (V m c main_v3 : IVec S256 32)
    = select (sortInb m c) (Host.gather gather_S256_S256x1_S256_n_0_n_n_0_1_1 (cats m c) (sortCol m c))
        (broadcastInDim S256 ![] bcast_S_S256 (constantI S_ 32 2147483648#32)) := by
  -- the launch valuation is the launch memory folded over the host operations in order; read at this buffer, the fold
  -- leaves the chain of operations that produced it, each operand carried from its buffer's type and each result
  -- carried back, and the two transports cancel
  dsimp only [Gen.V, Gen.V0]
  simp only [Gen.hostOps0, Gen.hostOps0_1, Gen.hostOps0_2, Gen.hostOps0_3, List.flatten_cons, List.flatten_nil, List.append_nil, List.cons_append, List.nil_append]
  after_results
  simp only [Cert.LibTRef.ofBuf_toBuf]
  -- the chain is the take as it is lowered: the wrapped positions as a column, their range test reduced along the
  -- column, the gather, and the fill; the right-hand side is the same chain under its names
  dsimp only [sortCol, sortInb, Cert.LibTake.col, Cert.LibTake.inb]
  unfold sortIdx
  rfl

/-- The wrapped sorted positions, as a column, are the row numbers σ n: none is negative, so none is wrapped, -/
theorem sortCol_apply (c : Dev nD) (n : Fin 256) : sortCol m c (ix2 n (0 : Fin 1)) = BitVec.ofNat 32 (σ m c n).val :=
  Cert.LibTake.col_apply bcast_S_S256 bcast_S256_S256x1_0 (sortIdx m c) (σ m c) (sortIdx_apply m c) n

/-- and every one of them passes the range test. -/
theorem sortInb_apply (c : Dev nD) (n : Fin 256) : sortInb m c (ix1 n) = 1#1 :=
  Cert.LibTake.inb_apply bcast_S_S256x1 bcast_S1_S1x1_1 bcast_S1x1_S256x1_0_1 reducesTo_S256x1_S256_d1 h_S_
    (sortCol m c) (σ m c) (sortCol_apply m c) n

/-- Row n of the sorted inputs is sample σ n. -/
theorem V_v2_apply (c : Dev nD) (n : Fin 256) (a : Fin 32) (b : Fin 1024) :
    (V m c main_v2 : Vec F S256x32x1024 .f32) (ix3 n a b) = m ((c : Thread nD τ).loc main_arg0) (ix3 (σ m c n) a b) := by
  -- the test holds at row n, so the select keeps the gathered slab, and the gather reads row σ n unclamped
  rw [V_v2]
  exact Cert.LibTake.take3_apply gather_S256x32x1024_S256x1_S256x32x1024_12_0_n_n_0_1_1321024 rfl rfl rfl rfl rfl
    bcast_S256_S256x32x1024_0 bcast_S_S256x32x1024 (m ((c : Thread nD τ).loc main_arg0)) (sortCol m c) (sortInb m c)
    (constant S_ .f32 0x7FC00000#32) (σ m c) (sortCol_apply m c) (sortInb_apply m c) n a b

/-- Entry n of the sorted categories is category σ n. -/
theorem V_v3_apply (c : Dev nD) (n : Fin 256) :
    (V m c main_v3 : IVec S256 32) (ix1 n) = cats m c (ix1 (σ m c n)) := by
  -- the test holds at entry n, so the select keeps the gathered entry, and the gather reads entry σ n unclamped
  rw [V_v3]
  exact Cert.LibTake.take1_apply gather_S256_S256x1_S256_n_0_n_n_0_1_1 rfl rfl rfl rfl rfl
    (cats m c) (sortCol m c) (sortInb m c) (broadcastInDim S256 ![] bcast_S_S256 (constantI S_ 32 2147483648#32))
    (σ m c) (sortCol_apply m c) (sortInb_apply m c) n

end Cert.KernelIdeal.HostPre

end
-- ==== Proof.OkHyps.lean ====
/-
  The two side conditions of the kernel's run, from the precondition. The weight window's block at grid point t is the
  slab of category word t of the sorted categories; the body loads the bias row at the same word. Entry t of the
  sorted categories is one of the categories (category σ t), and the precondition puts every category in 0 … 31: so the
  slab lies inside the 32 slabs of weights, and the row inside the 32 bias rows.
-/
import proofs.«428378_j18674517803359_1_alg».proof.Proof.HostPre
import proofs.«428378_j18674517803359_1_alg».proof.Proof.PreDecode
import Mathlib.Tactic.FinCases

set_option maxRecDepth 16384

noncomputable section

namespace Cert.KernelIdeal.OkHyps

open Idealize.ShloMosaic Idealize.ShloMosaic.TcCoe Idealize.SL.Sem Idealize.ShloMosaic.ValueIdx
open Cert.KernelIdeal Cert.KernelIdeal.Gen Cert.KernelIdeal.HostPre

variable {F : FTy → Type} [FloatOps F] [hP : Cert.Pre_finite_inputs.Facts]
variable (m : (ℓ : Loc nD τ sig) → Buf (Elt F) ℓ)

/-- The precondition of the launch memory: the printed predicate of the four argument arrays is all ones, on every core. -/
abbrev Pre : Prop :=
  ∀ c : Dev nD, Cert.Pre_finite_inputs.fn (F := F) (m ((c.tc : Thread nD τ).loc main_arg0)) (m ((c.tc : Thread nD τ).loc main_arg1))
    (m ((c.tc : Thread nD τ).loc main_arg2)) (m ((c.tc : Thread nD τ).loc main_arg3)) = (fun _ => 1#1)

/-! ## The table is the sorted categories -/

/-- The one prefetched table is the buffer of the sorted categories, as core 0 holds it when the kernel starts. -/
theorem tbl_zero : (tbl m 0 : IVec S256 32) = (V m 0 main_v3 : IVec S256 32) := rfl

/-- Under the precondition every category word of the table the kernel prefetches is below 32. -/
theorem tbl_lt (h : Pre m) (n : Fin 256) : ((tbl m 0 : IVec S256 32) (ix1 n)).toNat < 32 := by
  -- entry n is category σ n, and the precondition bounds every category
  rw [tbl_zero, V_v3_apply]
  exact Cert.PreDecode.cat_lt _ _ _ _ (h 0) _

/-! ## Reading one word of a [256] table, for any contents -/

/-- A one-element rectangle of the [256] table that starts at k has its one element at index k: its first (and only)
    position is 0 on the axis, and the strides are 1, so the index is off 0 + 1 * 0. -/
theorem unit_idx (k : Fin 256) (off : Fin 1 → Nat) (hoff : off 0 = k.val) (inb : ∀ a, off a + S1.size a ≤ S256.size a)
    (h1 : 0 < S1.numel) : (Rect.unit (s := S256) off S1.size inb).idx (Shape.Idx.first h1) = ix1 k := by
  rw [eq_ix1 ((Rect.unit (s := S256) off S1.size inb).idx (Shape.Idx.first h1))]
  refine congrArg ix1 (Fin.ext ?_)
  rw [LoadRect.idx_apply]
  have z : ((Shape.Idx.first h1 : S1.Idx) 0).val = 0 := rfl
  have s : (Rect.unit (s := S256) off S1.size inb).stride 0 = 1 := rfl
  have o : (Rect.unit (s := S256) off S1.size inb).off 0 = off 0 := rfl
  rw [z, s, o, hoff, Nat.mul_zero, Nat.add_zero]

/-- Reading the whole table's memref through that rectangle, at any contents f, gives f at index k. -/
theorem read_unit (f : IVec S256 32) (k : Fin 256) (off : Fin 1 → Nat) (hoff : off 0 = k.val)
    (inb : ∀ a, off a + S1.size a ≤ S256.size a) (h1 : 0 < S1.numel) :
    tbM0_0.view.readAt (Elt F) (Rect.unit (s := S256) off S1.size inb).toLoadRect f (Shape.Idx.first h1) = f (ix1 k) :=
  congrArg f (unit_idx k off hoff inb h1)

/-- On the grid of one axis of 256 points, point t has coordinate t. -/
theorem coord_val (t : Fin grid0.N) : ((grid0.coords t) 0).val = t.val := by
  have ht : t.val < 256 := Nat.lt_of_lt_of_eq t.isLt N_0
  have e : ((grid0.coords t) 0).val = t.val / grid0.stride 0 % grid0.bound 0 := rfl
  have s : grid0.stride 0 = 1 := by decide
  have b : grid0.bound 0 = 256 := rfl
  rw [e, s, b, Nat.div_one, Nat.mod_eq_of_lt ht]

/-- The offset the body computes at grid point t is t: the coordinate is below 256, so it is unchanged as a 32-bit word. -/
theorem off1_val (t : Fin grid0.N) : k0_off1 (grid0.coords t) 0 = t.val := by
  have ht : t.val < 256 := Nat.lt_of_lt_of_eq t.isLt N_0
  have e : k0_off1 (grid0.coords t) 0 = (BitVec.ofNat 32 ((grid0.coords t) 0).val).toNat := rfl
  rw [e, coord_val t, BitVec.toNat_ofNat]
  exact Nat.mod_eq_of_lt (by omega)

/-- The word the body reads at grid point t is entry t of the table. -/
theorem word_eq (t : Fin grid0.N) :
    tbM0_0.view.readAt (Elt F) (Rect.unit (s := S256) (k0_off1 (grid0.coords t)) S1.size (k0_off1_inb (grid0.coords t))).toLoadRect (tbl m 0) (Shape.Idx.first (numel1_S1.symm ▸ Nat.one_pos))
      = (tbl m 0 : IVec S256 32) (ix1 (⟨t.val, Nat.lt_of_lt_of_eq t.isLt N_0⟩ : Fin 256)) :=
  read_unit (tbl m 0) ⟨t.val, Nat.lt_of_lt_of_eq t.isLt N_0⟩ _ (off1_val t) _ _

/-! ## The weight window's block, for any table contents whose words are below 32 -/

/-- The weight window's index map reads one word of the table and returns (that word, 0, 0). -/
theorem transform_1_eq (pf : pre0.Contents (Elt F)) (i : grid0.Coords) :
    ∃ x : S256.Idx, cc0_transform_1 k0_off1_inb numel1_S1 pf i = ![((pf 0 : IVec S256 32) x).toNat, 0, 0] :=
  ⟨_, rfl⟩

/-- If every word of the table is below 32, the block (word, 0, 0) of extents [1, 1024, 1024] lies inside the
    [32, 1024, 1024] weights: word + 1 ≤ 32 on the first axis, and the other two axes are taken whole. -/
theorem ok_of_lt (pf : pre0.Contents (Elt F)) (hpf : ∀ x : S256.Idx, ((pf 0 : IVec S256 32) x).toNat < 32) : ok0 pf := by
  intro i
  obtain ⟨x, e⟩ := transform_1_eq pf i
  have hx := hpf x
  refine ⟨fun a => ?_, Or.inl rfl⟩
  rw [e]
  fin_cases a <;> simp [S1x1024x1024, S32x1024x1024] <;> omega

/-- The weight window's block lies inside the weights at every grid point. -/
theorem ok_of_pre (h : Pre m) : Ok m :=
  ok_of_lt (tbl m) fun x => (eq_ix1 x) ▸ tbl_lt m h (x 0)

/-! ## The bias row -/

/-- The check the body assumes of the word it loaded holds when the word is below 32: the row (word, 0) of extents
    [1, 1024] lies inside the [32, 1024] bias table. -/
theorem chk_of_lt (w : BitVec 32) (hw : w.toNat < 32) : k0_chk1 w := by
  intro a
  have e : k0_off2 w = ![w.toNat, 0] := rfl
  rw [e]
  fin_cases a <;> simp [S1x1024, S32x1024] <;> omega

/-- The bias row the body loads lies inside the bias table at every grid point. -/
theorem hyps_of_pre (h : Pre m) (hO : Ok m) : Hyps m hO :=
  Hyps.of fun c t => chk_of_lt _ (by rw [word_eq m t]; exact tbl_lt m h _)

end Cert.KernelIdeal.OkHyps

end
-- ==== Proof.LibPlainDot.lean ====
/-
  A plain matrix product read at one entry. For the dimension numbers "rows × contraction by contraction × columns"
  with no batch axis, the product into a zero accumulator, at row `r` and column `q`, is the sum over the contracted
  coordinate `j` of the left operand at (r, j) times the right operand at (j, q). The same holds for the host's
  `dot_general`. Both are stated over extended reals, where the product is the exact sum.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The left operand's index at output entry (r, q) and contracted coordinate `j` is (r, j). -/
theorem plain_lhsIdx (M K N : Nat) (r : Fin M) (q : Fin N) (j : Fin K) :
    (DotDims.plain M K N).lhsIdx (ix2 r q) ((contrEquiv1 (DotDims.plain M K N) K rfl rfl).symm j) = ix2 r j := by
  have hj := contrEquiv1_symm_val (DotDims.plain M K N) K rfl rfl j
  funext a
  apply Fin.ext
  match a with
  | ⟨0, _⟩ => rfl
  | ⟨1, _⟩ => refine Eq.trans ?_ hj; rfl

/-- The right operand's index at output entry (r, q) and contracted coordinate `j` is (j, q). -/
theorem plain_rhsIdx (M K N : Nat) (r : Fin M) (q : Fin N) (j : Fin K) :
    (DotDims.plain M K N).rhsIdx (ix2 r q) ((contrEquiv1 (DotDims.plain M K N) K rfl rfl).symm j) = ix2 j q := by
  have hj := contrEquiv1_symm_val (DotDims.plain M K N) K rfl rfl j
  funext a
  apply Fin.ext
  match a with
  | ⟨0, _⟩ => refine Eq.trans ?_ hj; rfl
  | ⟨1, _⟩ => rfl

/-- The matrix unit's product into a zero accumulator, at one entry. -/
theorem matmul_plain_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    FloatOps.matmul (DotDims.plain M K N) prec A B (constant ⟨2, ![M, N]⟩ .f32 0x00000000#32) (ix2 r q)
      = ∑ j : Fin K, A (ix2 r j) * B (ix2 j q) := by
  rw [Ideal.matmul_constant_zero_apply, ← Equiv.sum_comp (contrEquiv1 (DotDims.plain M K N) K rfl rfl).symm]
  refine Finset.sum_congr rfl fun j _ => ?_
  rw [plain_lhsIdx, plain_rhsIdx]

/-- The host's `dot_general`, at one entry. -/
theorem dotGeneral_plain_apply {φ₁ φ₂ : FTy} (M K N : Nat) (prec : Option ContractPrecision) (sched : HostSchedule)
    (A : FVec Ideal ⟨2, ![M, K]⟩ φ₁) (B : FVec Ideal ⟨2, ![K, N]⟩ φ₂) (r : Fin M) (q : Fin N) :
    FloatOps.dotGeneral (DotDims.plain M K N) prec sched A B (ix2 r q) = ∑ j : Fin K, A (ix2 r j) * B (ix2 j q) := by
  rw [Ideal.dotGeneral_apply, ← Equiv.sum_comp (contrEquiv1 (DotDims.plain M K N) K rfl rfl).symm]
  refine Finset.sum_congr rfl fun j _ => ?_
  rw [plain_lhsIdx, plain_rhsIdx]

end Cert.LibPlainDot

end
-- ==== Proof.Payload.lean ====
/-
  What one grid point leaves in the output's staging buffer, entry by entry over the extended reals: the point's
  32 × 1024 block of inputs times its 1024 × 1024 block of weights, summed over the 1024 contracted coordinates
  (the change to the 16-bit float format is the identity on extended reals, and the product starts from zero), plus
  the bias row the point's category word selects, added to every row.
-/
import proofs.«428378_j18674517803359_1_alg».proof.Proof.Gen.KernelIdeal.Frame
import proofs.«428378_j18674517803359_1_alg».proof.Proof.LibPlainDot
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Payload

open Idealize.ShloMosaic Idealize.ShloMosaic.TcCoe Idealize.SL.Sem Idealize.ShloMosaic.ValueIdx
open Cert.KernelIdeal Cert.KernelIdeal.Gen

/-- The category word the body reads at grid point i from the table's contents xt0. -/
abbrev wordAt {F : FTy → Type} [FloatOps F] (c : Dev nD) (i : grid0.Coords) (xt0 : TbBuf0 (F := F) c tbM0_0) : BitVec 32 :=
  tbM0_0.view.readAt (Elt F) (Rect.unit (s := S256) (k0_off1 i) S1.size (k0_off1_inb i)).toLoadRect xt0 (Shape.Idx.first (numel1_S1.symm ▸ Nat.one_pos))

/-! ## The stored block is the body's arithmetic on the three loaded values -/

/-- The three offsets of a rectangle that is its whole rank-3 block are zero. -/
theorem offsets_zero : (![0, 0, 0] : Fin 3 → Nat) = fun _ => 0 := funext fun a => by fin_cases a <;> rfl

/-- The row of the bias table the body loads: the table read through the 1 × 1024 rectangle whose row offset is the
    category word w and whose column offset is zero. -/
abbrev rowAt {F : FTy → Type} [FloatOps F] (x2 : Vec F S32x1024 .f32) (w : BitVec 32) (hw : k0_chk1 w) : Vec F S1x1024 .f32 :=
  View.ld x2 (Rect.unit (s := S32x1024) (k0_off2 w) S1x1024.size (k0_off2_inb w hw))

/-- The body's one store covers the whole output block, so what the block holds afterwards is the stored value: the
    body's arithmetic applied to the input block, the weight block and the selected bias row (each input's buffer is
    whole, so a load through the whole-block rectangle reads its contents as they are). For any float semantics. -/
theorem out0_eq_pay {F : FTy → Type} [FloatOps F] (c : Dev nD) (i : grid0.Coords) (arg2 : Memref sig .tc .vmem S1x32x1024 .f32) (harg2 : arg2.IsWhole)
    (arg3 : Memref sig .tc .vmem S1x1024x1024 .f32) (harg3 : arg3.IsWhole) (arg4 : Memref sig .tc .vmem S32x1024 .f32) (harg4 : arg4.IsWhole)
    (arg5 : Memref sig .tc .vmem S1x32x1024 .f32) (harg5 : arg5.IsWhole)
    (x0 : Vec F S1x32x1024 .f32) (x1 : Vec F S1x1024x1024 .f32) (x2 : Vec F S32x1024 .f32) (xt0 : TbBuf0 (F := F) c tbM0_0)
    (k0_hw1 : k0_chk1 (wordAt (F := F) c i xt0)) :
    out0_A_3 (F := F) c i arg2 harg2 arg3 harg3 arg4 harg4 arg5 harg5 x0 x1 x2 xt0 k0_hw1
      = k0_pay1 x0 x1 (rowAt x2 (wordAt (F := F) c i xt0) k0_hw1) := by
  unfold out0_A_3
  rw [View.read_writes_eq_canon _ _ _ (cover0_A_3 c i arg2 harg2 arg3 harg3 arg4 harg4 arg5 harg5 x0 x1 x2 xt0 k0_hw1)]
  unfold kernelRun0_A
  dsimp only
  sl_unfold_words
  rw [View.canon_unit_zero offsets_zero]
  simp only [View.readAt_eq_ld, harg2.read_unread, harg3.read_unread, harg4.read_unread,
    View.ld_unit_zero (S := S1x32x1024) offsets_zero, View.ld_unit_zero (S := S1x1024x1024) offsets_zero]
  rfl

/-! ## The loaded bias row is the table's row at the category word -/

/-- Entry (0, h) of the loaded row is the table's entry (w, h): the rectangle places its index (0, h) at row
    offset + 0 and column 0 + h. -/
theorem rowAt_apply {F : FTy → Type} [FloatOps F] (x2 : Vec F S32x1024 .f32) (w : BitVec 32) (hw : k0_chk1 w) (hlt : w.toNat < 32) (h : Fin 1024) :
    rowAt x2 w hw (ix2 (0 : Fin 1) h) = x2 (ix2 (⟨w.toNat, hlt⟩ : Fin 32) h) := by
  show x2 _ = x2 _
  refine congrArg x2 (funext fun a => Fin.ext ?_)
  match a with
  | ⟨0, _⟩ => rfl
  | ⟨1, _⟩ => show 0 + 1 * h.val = h.val; omega

/-! ## The body's arithmetic at one entry, over the extended reals -/

/-- Entry (0, t, h) of the body's arithmetic on an input block x0, a weight block x1 and a bias row v9: the added unit
    axis is read through; the sum is entrywise; the product into the zero accumulator is the sum over the contracted
    coordinate of left (t, d) times right (d, h), each operand its block with the unit axis dropped and the change of
    float format the identity; and the row, flattened, given its unit axis back and repeated over the 32 rows, is read
    at column h. -/
theorem pay_apply (x0 : Vec Ideal S1x32x1024 .f32) (x1 : Vec Ideal S1x1024x1024 .f32) (v9 : Vec Ideal S1x1024 .f32) (t : Fin 32) (h : Fin 1024) :
    k0_pay1 (F := Ideal) x0 x1 v9 (ix3 (0 : Fin 1) t h)
      = (∑ d : Fin 1024, x0 (ix3 (0 : Fin 1) t d) * x1 (ix3 (0 : Fin 1) d h)) + v9 (ix2 (0 : Fin 1) h) := by
  unfold k0_pay1
  refine (shapeCast_ab_1ab_apply _ _ (0 : Fin 1) t h).trans ?_
  refine (addf_apply _ _ _).trans ?_
  refine congrArg₂ (· + ·) ?_ ?_
  · refine (Cert.LibPlainDot.matmul_plain_apply 32 1024 1024 none _ _ t h).trans ?_
    refine Finset.sum_congr rfl fun d _ => ?_
    refine congrArg₂ (· * ·) ?_ ?_
    · exact shapeCast_1ab_ab_apply x0 _ t d
    · exact shapeCast_1ab_ab_apply x1 _ d h
  · refine (broadcastTo_1b_ab_apply _ _ t h).trans ?_
    refine (shapeCast_a_1a_apply _ _ (0 : Fin 1) h).trans ?_
    exact shapeCast_1a_a_apply v9 _ h

/-- Entry (0, t, h) of what the body leaves in the output's staging buffer, over the extended reals. -/
theorem out0_apply (c : Dev nD) (i : grid0.Coords) (arg2 : Memref sig .tc .vmem S1x32x1024 .f32) (harg2 : arg2.IsWhole)
    (arg3 : Memref sig .tc .vmem S1x1024x1024 .f32) (harg3 : arg3.IsWhole) (arg4 : Memref sig .tc .vmem S32x1024 .f32) (harg4 : arg4.IsWhole)
    (arg5 : Memref sig .tc .vmem S1x32x1024 .f32) (harg5 : arg5.IsWhole)
    (x0 : Vec Ideal S1x32x1024 .f32) (x1 : Vec Ideal S1x1024x1024 .f32) (x2 : Vec Ideal S32x1024 .f32) (xt0 : TbBuf0 (F := Ideal) c tbM0_0)
    (k0_hw1 : k0_chk1 (wordAt (F := Ideal) c i xt0)) (hlt : (wordAt (F := Ideal) c i xt0).toNat < 32) (t : Fin 32) (h : Fin 1024) :
    out0_A_3 (F := Ideal) c i arg2 harg2 arg3 harg3 arg4 harg4 arg5 harg5 x0 x1 x2 xt0 k0_hw1 (ix3 (0 : Fin 1) t h)
      = (∑ d : Fin 1024, x0 (ix3 (0 : Fin 1) t d) * x1 (ix3 (0 : Fin 1) d h)) + x2 (ix2 (⟨(wordAt (F := Ideal) c i xt0).toNat, hlt⟩ : Fin 32) h) := by
  refine (congrFun (out0_eq_pay (F := Ideal) c i arg2 harg2 arg3 harg3 arg4 harg4 arg5 harg5 x0 x1 x2 xt0 k0_hw1) (ix3 (0 : Fin 1) t h)).trans ?_
  refine (pay_apply x0 x1 (rowAt x2 (wordAt (F := Ideal) c i xt0) k0_hw1) t h).trans ?_
  exact congrArg (fun z => (∑ d : Fin 1024, x0 (ix3 (0 : Fin 1) t d) * x1 (ix3 (0 : Fin 1) d h)) + z)
    (rowAt_apply x2 (wordAt (F := Ideal) c i xt0) k0_hw1 hlt h)

end Cert.KernelIdeal.Payload

end
-- ==== Proof.Spec.lean ====
/-
  The common value of the two programs. Sample i of the batch has a category κ i among 32; its 32 × 1024 block of
  inputs is multiplied by that category's 1024 × 1024 weight matrix and that category's bias row is added to every
  row of the product:
      out[i, t, h] = (Σ_d x[i, t, d] · W[κ i, d, h]) + b[κ i, h],
  over the extended reals, the sum taken over the 1024 contracted coordinates.
-/
import Idealize.ShloMosaic.PureOps.Ideal
import Idealize.ShloMosaic.Lib.ValueIdx

noncomputable section

open scoped BigOperators

namespace Cert.Spec

open Idealize.ShloMosaic Idealize.ShloMosaic.ValueIdx

/-- The batch of inputs and of results: 256 samples of 32 rows and 1024 columns. -/
abbrev SX : Shape := ⟨3, ![256, 32, 1024]⟩
/-- The weights: one 1024 × 1024 matrix per category. -/
abbrev SW : Shape := ⟨3, ![32, 1024, 1024]⟩
/-- The biases: one row of 1024 per category. -/
abbrev SB : Shape := ⟨2, ![32, 1024]⟩

/-- Entry (i, t, h) of the result, by coordinates. -/
def g (x : SX.Idx → EReal) (κ : Fin 256 → Fin 32) (W : SW.Idx → EReal) (b : SB.Idx → EReal)
    (i : Fin 256) (t : Fin 32) (h : Fin 1024) : EReal :=
  (∑ d : Fin 1024, x (ix3 i t d) * W (ix3 (κ i) d h)) + b (ix2 (κ i) h)

/-- The result as one array. -/
def G (x : SX.Idx → EReal) (κ : Fin 256 → Fin 32) (W : SW.Idx → EReal) (b : SB.Idx → EReal) : SX.Idx → EReal :=
  fun j => g x κ W b (j 0) (j 1) (j 2)

theorem G_apply (x : SX.Idx → EReal) (κ : Fin 256 → Fin 32) (W : SW.Idx → EReal) (b : SB.Idx → EReal)
    (i : Fin 256) (t : Fin 32) (h : Fin 1024) : G x κ W b (ix3 i t h) = g x κ W b i t h := rfl

end Cert.Spec

end
-- ==== Proof.KernelBlocks.lean ====
/-
  The output array after the kernel. Grid point t multiplies row block t of the sorted inputs by the weight slab of the
  category word at entry t of the sorted categories, adds that category's bias row, and writes the result to row block
  t of the output; the 256 blocks tile the output. So row n of the output array is the result for sample σ n.
-/
import proofs.«428378_j18674517803359_1_alg».proof.Proof.OkHyps
import proofs.«428378_j18674517803359_1_alg».proof.Proof.Payload
import proofs.«428378_j18674517803359_1_alg».proof.Proof.Spec
import Idealize.ShloMosaic.Lib.Pipeline.Value

set_option maxRecDepth 16384

noncomputable section

open scoped BigOperators

namespace Cert.KernelIdeal.KernelBlocks

open Idealize.ShloMosaic Idealize.ShloMosaic.TcCoe Idealize.SL.Sem Idealize.ShloMosaic.ValueIdx
open Cert.KernelIdeal Cert.KernelIdeal.Gen Cert.KernelIdeal.HostPre Cert.KernelIdeal.OkHyps

variable [hP : Cert.Pre_finite_inputs.Facts]
variable (m : (ℓ : Loc nD τ sig) → Buf (Elt Ideal) ℓ)

/-! ## The four index maps over the grid

Every fact of this part is about the pipeline at ARBITRARY admissible contents `a` of the table of sorted categories:
where the blocks lie is a matter of the index maps alone, and only the weight window's first block index is a word of
the table. -/

/-- Over the 256 grid points: the input window's block index is (t, 0, 0). -/
theorem tr0_facts : ∀ t : Fin grid0.N, cc0_transform_0 (grid0.coords t) 0 = t.val ∧ cc0_transform_0 (grid0.coords t) 1 = 0 ∧ cc0_transform_0 (grid0.coords t) 2 = 0 := by decide +kernel

/-- The output window's block index is (t, 0, 0). -/
theorem tr3_facts : ∀ t : Fin grid0.N, cc0_transform_3 (grid0.coords t) 0 = t.val ∧ cc0_transform_3 (grid0.coords t) 1 = 0 ∧ cc0_transform_3 (grid0.coords t) 2 = 0 := by decide +kernel

/-- The bias window's block index is (0, 0). -/
theorem tr2_facts : ∀ t : Fin grid0.N, cc0_transform_2 (grid0.coords t) 0 = 0 ∧ cc0_transform_2 (grid0.coords t) 1 = 0 := by decide +kernel

/-- The weight window's block index on its first axis is the category word the body reads at the point, whatever the
    table holds; -/
theorem tr1_word (c : Dev nD) (pf : pre0.Contents (Elt Ideal)) (i : grid0.Coords) :
    cc0_transform_1 k0_off1_inb numel1_S1 pf i 0 = (Payload.wordAt (F := Ideal) c i (pf 0)).toNat := rfl
/-- on the other two axes it is zero. -/
theorem tr1_zero (pf : pre0.Contents (Elt Ideal)) (i : grid0.Coords) :
    cc0_transform_1 k0_off1_inb numel1_S1 pf i 1 = 0 ∧ cc0_transform_1 k0_off1_inb numel1_S1 pf i 2 = 0 := ⟨rfl, rfl⟩

/-- Each window's block index at a point is its index map at the point's coordinates. -/
theorem idx0 (a : (pcfg0 (F := Ideal)).Adm) (t : Fin (cfg0 a).N) : ((cfg0 a).win 0).index t = cc0_transform_0 (grid0.coords t) := rfl
theorem idx1 (a : (pcfg0 (F := Ideal)).Adm) (t : Fin (cfg0 a).N) : ((cfg0 a).win 1).index t = cc0_transform_1 k0_off1_inb numel1_S1 a.1 (grid0.coords t) := rfl
theorem idx2 (a : (pcfg0 (F := Ideal)).Adm) (t : Fin (cfg0 a).N) : ((cfg0 a).win 2).index t = cc0_transform_2 (grid0.coords t) := rfl
theorem idx3 (a : (pcfg0 (F := Ideal)).Adm) (t : Fin (cfg0 a).N) : ((cfg0 a).win 3).index t = cc0_transform_3 (grid0.coords t) := rfl

/-! ## Reading an array through a window's block

A block's coordinate on an axis is the block index times the block's size there plus the coordinate inside the block. -/

/-- Entry (0, r, d) of the input window's block at point t is entry (t, r, d) of the array. -/
theorem blk0_apply (a : (pcfg0 (F := Ideal)).Adm) (t : Fin (cfg0 a).N) (A : Vec Ideal S256x32x1024 .f32) (r : Fin 32) (d : Fin 1024) :
    (((cfg0 a).win 0).blk t).view.read (Elt Ideal) A (ix3 (0 : Fin 1) r d) = A (ix3 (⟨t.val, Nat.lt_of_lt_of_eq t.isLt N_0⟩ : Fin 256) r d) := by
  show A _ = A _
  refine congrArg A (funext fun k => Fin.ext ?_)
  obtain ⟨e0, e1, e2⟩ := tr0_facts t
  match k with
  | ⟨0, _⟩ =>
    show ((cfg0 a).win 0).index t (0 : Fin 3) * 1 + 1 * 0 = t.val
    rw [idx0, e0]; omega
  | ⟨1, _⟩ =>
    show ((cfg0 a).win 0).index t (1 : Fin 3) * 32 + 1 * r.val = r.val
    rw [idx0, e1]; omega
  | ⟨2, _⟩ =>
    show ((cfg0 a).win 0).index t (2 : Fin 3) * 1024 + 1 * d.val = d.val
    rw [idx0, e2]; omega

/-- The same for the output window. -/
theorem blk3_apply (a : (pcfg0 (F := Ideal)).Adm) (t : Fin (cfg0 a).N) (A : Vec Ideal S256x32x1024 .f32) (r : Fin 32) (d : Fin 1024) :
    (((cfg0 a).win 3).blk t).view.read (Elt Ideal) A (ix3 (0 : Fin 1) r d) = A (ix3 (⟨t.val, Nat.lt_of_lt_of_eq t.isLt N_0⟩ : Fin 256) r d) := by
  show A _ = A _
  refine congrArg A (funext fun k => Fin.ext ?_)
  obtain ⟨e0, e1, e2⟩ := tr3_facts t
  match k with
  | ⟨0, _⟩ =>
    show ((cfg0 a).win 3).index t (0 : Fin 3) * 1 + 1 * 0 = t.val
    rw [idx3, e0]; omega
  | ⟨1, _⟩ =>
    show ((cfg0 a).win 3).index t (1 : Fin 3) * 32 + 1 * r.val = r.val
    rw [idx3, e1]; omega
  | ⟨2, _⟩ =>
    show ((cfg0 a).win 3).index t (2 : Fin 3) * 1024 + 1 * d.val = d.val
    rw [idx3, e2]; omega

/-- Entry (0, d, e) of the weight window's block at point t is entry (w, d, e) of the array, w the category word the
    body reads at t (a slab number once it is known to be below 32). -/
theorem blk1_apply (a : (pcfg0 (F := Ideal)).Adm) (c : Dev nD) (t : Fin (cfg0 a).N) (A : Vec Ideal S32x1024x1024 .f32) (d e : Fin 1024)
    (hlt : (Payload.wordAt (F := Ideal) c (grid0.coords t) (a.1 0)).toNat < 32) :
    (((cfg0 a).win 1).blk t).view.read (Elt Ideal) A (ix3 (0 : Fin 1) d e)
      = A (ix3 (⟨(Payload.wordAt (F := Ideal) c (grid0.coords t) (a.1 0)).toNat, hlt⟩ : Fin 32) d e) := by
  show A _ = A _
  refine congrArg A (funext fun k => Fin.ext ?_)
  obtain ⟨e1, e2⟩ := tr1_zero a.1 (grid0.coords t)
  match k with
  | ⟨0, _⟩ =>
    show ((cfg0 a).win 1).index t (0 : Fin 3) * 1 + 1 * 0 = (Payload.wordAt (F := Ideal) c (grid0.coords t) (a.1 0)).toNat
    rw [idx1, tr1_word c]; omega
  | ⟨1, _⟩ =>
    show ((cfg0 a).win 1).index t (1 : Fin 3) * 1024 + 1 * d.val = d.val
    rw [idx1, e1]; omega
  | ⟨2, _⟩ =>
    show ((cfg0 a).win 1).index t (2 : Fin 3) * 1024 + 1 * e.val = e.val
    rw [idx1, e2]; omega

/-- The bias window's block is the whole table at every point. -/
theorem blk2_apply (a : (pcfg0 (F := Ideal)).Adm) (t : Fin (cfg0 a).N) (A : Vec Ideal S32x1024 .f32) (k : Fin 32) (e : Fin 1024) :
    (((cfg0 a).win 2).blk t).view.read (Elt Ideal) A (ix2 k e) = A (ix2 k e) := by
  show A _ = A _
  refine congrArg A (funext fun j => Fin.ext ?_)
  obtain ⟨e0, e1⟩ := tr2_facts t
  match j with
  | ⟨0, _⟩ =>
    show ((cfg0 a).win 2).index t (0 : Fin 2) * 32 + 1 * k.val = k.val
    rw [idx2, e0]; omega
  | ⟨1, _⟩ =>
    show ((cfg0 a).win 2).index t (1 : Fin 2) * 1024 + 1 * e.val = e.val
    rw [idx2, e1]; omega

/-! ## The output's blocks tile the array -/

/-- An index of the output array is in point t's block iff each coordinate is in the block's range on its axis. -/
theorem mem_blk3 (a : (pcfg0 (F := Ideal)).Adm) (t : Fin (cfg0 a).N) (i : S256x32x1024.Idx) :
    i ∈ (((cfg0 a).win 3).blk t).view.set ↔ ∀ k : Fin 3, ((cfg0 a).win 3).index t k * S1x32x1024.size k ≤ (i k).val ∧ (i k).val < ((cfg0 a).win 3).index t k * S1x32x1024.size k + S1x32x1024.size k := by
  show i ∈ ((View.whole main_v4).slice (((cfg0 a).win 3).rect t)).set ↔ _
  have e : ((View.whole main_v4).slice (((cfg0 a).win 3).rect t)).set = (((cfg0 a).win 3).rect t).set :=
    View.set_slice_whole main_v4 _
  exact (iff_of_eq (congrArg (fun s => i ∈ s) e)).trans Rect.mem_set_unit

/-- Row n of the array lies in point n's block (one row of 32 × 1024 per block), and every point writes its block back. -/
theorem cover3 (a : (pcfg0 (F := Ideal)).Adm) (i : S256x32x1024.Idx) :
    ∃ t : Fin (cfg0 a).N, ((cfg0 a).win 3).flush t = true ∧ i ∈ (((cfg0 a).win 3).blk t).view.set := by
  have h0 : (i 0).val < 256 := (i 0).isLt
  have h1 : (i 1).val < 32 := (i 1).isLt
  have h2 : (i 2).val < 1024 := (i 2).isLt
  refine ⟨⟨(i 0).val, Nat.lt_of_lt_of_eq h0 N_0.symm⟩, flush0_3 a _, (mem_blk3 a _ i).mpr fun k => ?_⟩
  obtain ⟨e0, e1, e2⟩ := tr3_facts ⟨(i 0).val, Nat.lt_of_lt_of_eq h0 N_0.symm⟩
  match k with
  | ⟨0, _⟩ =>
    show ((cfg0 a).win 3).index _ (0 : Fin 3) * 1 ≤ (i 0).val ∧ (i 0).val < ((cfg0 a).win 3).index _ (0 : Fin 3) * 1 + 1
    rw [idx3, e0]; show (i 0).val * 1 ≤ (i 0).val ∧ (i 0).val < (i 0).val * 1 + 1; omega
  | ⟨1, _⟩ =>
    show ((cfg0 a).win 3).index _ (1 : Fin 3) * 32 ≤ (i 1).val ∧ (i 1).val < ((cfg0 a).win 3).index _ (1 : Fin 3) * 32 + 32
    rw [idx3, e1]; omega
  | ⟨2, _⟩ =>
    show ((cfg0 a).win 3).index _ (2 : Fin 3) * 1024 ≤ (i 2).val ∧ (i 2).val < ((cfg0 a).win 3).index _ (2 : Fin 3) * 1024 + 1024
    rw [idx3, e2]; omega

/-! ## The sorted result -/

/-- The category of sorted row n, as a row number. -/
def κs (h : Pre m) (n : Fin 256) : Fin 32 := ⟨((tbl m 0 : IVec S256 32) (ix1 n)).toNat, tbl_lt m h n⟩

/-- The sorted inputs, the weights and the biases as the kernel finds them, over the extended reals. -/
abbrev xs (c : Dev nD) : Cert.Spec.SX.Idx → EReal := V m c main_v2
abbrev Wm (c : Dev nD) : Cert.Spec.SW.Idx → EReal := m ((c.tc : Thread nD τ).loc main_arg2)
abbrev bm (c : Dev nD) : Cert.Spec.SB.Idx → EReal := m ((c.tc : Thread nD τ).loc main_arg3)

/-- Row n, entry (t, hh) of what the output array holds after the kernel. -/
def sortedOut (h : Pre m) (c : Dev nD) : Cert.Spec.SX.Idx → EReal := fun j =>
  (∑ d : Fin 1024, xs m c (ix3 (j 0) (j 1) d) * Wm m c (ix3 (κs m h (j 0)) d (j 2))) + bm m c (ix2 (κs m h (j 0)) (j 2))

/-- Row n of it is the common value's row σ n, when the categories are the row numbers κ. -/
theorem sortedOut_apply (h : Pre m) (c : Dev nD) (κ : Fin 256 → Fin 32)
    (hκ : ∀ (c : Dev nD) (i : Fin 256), m ((c.tc : Thread nD τ).loc main_arg1) (ix1 i) = BitVec.ofNat 32 (κ i).val)
    (n : Fin 256) (t : Fin 32) (hh : Fin 1024) :
    sortedOut m h c (ix3 n t hh)
      = Cert.Spec.g (m ((c.tc : Thread nD τ).loc main_arg0)) κ (m ((c.tc : Thread nD τ).loc main_arg2)) (m ((c.tc : Thread nD τ).loc main_arg3)) (σ m c n) t hh := by
  -- there is one core
  obtain rfl : c = 0 := Subsingleton.elim _ _
  -- entry n of the sorted categories is category σ n, which is the word of the row number κ (σ n)
  have hw : (tbl m 0 : IVec S256 32) (ix1 n) = BitVec.ofNat 32 (κ (σ m 0 n)).val :=
    (V_v3_apply m 0 n).trans (hκ 0 (σ m 0 n))
  -- row n of the sorted inputs is sample σ n
  have hx : ∀ d : Fin 1024, xs m 0 (ix3 n t d) = m (((0 : Dev nD).tc : Thread nD τ).loc main_arg0) (ix3 (σ m 0 n) t d) :=
    fun d => V_v2_apply m 0 n t d
  generalize σ m 0 n = k at hw hx ⊢
  -- a row number below 32 is its own word's value
  have hk : κs m h n = κ k := by
    apply Fin.ext
    show ((tbl m 0 : IVec S256 32) (ix1 n)).toNat = (κ k).val
    rw [hw, BitVec.toNat_ofNat]
    exact Nat.mod_eq_of_lt (Nat.lt_trans (κ k).isLt (by decide))
  unfold sortedOut Cert.Spec.g
  show (∑ d : Fin 1024, xs m 0 (ix3 n t d) * Wm m 0 (ix3 (κs m h n) d hh)) + bm m 0 (ix2 (κs m h n) hh) = _
  rw [hk]
  -- the two sums agree term by term
  exact congrArg₂ (· + ·) (Finset.sum_congr rfl fun d _ => congrArg₂ (· * ·) (hx d) rfl) rfl

/-! ## What a grid point finds and what it leaves -/

/-- The input window's block at point t is row block t of the sorted inputs. -/
theorem iblk0_apply (hO : Ok m) (c : Dev nD) (t : Fin (cfgM m hO).N) (r : Fin 32) (d : Fin 1024) :
    (iblk m hO c 0 t : Vec Ideal S1x32x1024 .f32) (ix3 (0 : Fin 1) r d) = xs m c (ix3 (⟨t.val, Nat.lt_of_lt_of_eq t.isLt N_0⟩ : Fin 256) r d) :=
  blk0_apply (adm m hO) t (V m c main_v2) r d

/-- The weight window's block at point t is the slab of the category word the point reads; no operation before the
    kernel writes the weights. -/
theorem iblk1_apply (hO : Ok m) (c : Dev nD) (t : Fin (cfgM m hO).N) (d e : Fin 1024)
    (hlt : (Payload.wordAt (F := Ideal) c (grid0.coords t) (tbl m 0)).toNat < 32) :
    (iblk m hO c 1 t : Vec Ideal S1x1024x1024 .f32) (ix3 (0 : Fin 1) d e)
      = Wm m c (ix3 (⟨(Payload.wordAt (F := Ideal) c (grid0.coords t) (tbl m 0)).toNat, hlt⟩ : Fin 32) d e) :=
  (blk1_apply (adm m hO) c t (V m c main_arg2) d e hlt).trans
    (congrFun (V_main_arg2 m c) (ix3 (⟨(Payload.wordAt (F := Ideal) c (grid0.coords t) (tbl m 0)).toNat, hlt⟩ : Fin 32) d e))

/-- The bias window's block is the whole bias table at every point; no operation before the kernel writes it. -/
theorem iblk2_apply (hO : Ok m) (c : Dev nD) (t : Fin (cfgM m hO).N) (k : Fin 32) (e : Fin 1024) :
    (iblk m hO c 2 t : Vec Ideal S32x1024 .f32) (ix2 k e) = bm m c (ix2 k e) :=
  (blk2_apply (adm m hO) t (V m c main_arg3) k e).trans (congrFun (V_main_arg3 m c) (ix2 k e))

/-- The category word point t reads is entry t of the sorted categories, -/
theorem word_toNat (c : Dev nD) (t : Fin grid0.N) :
    (Payload.wordAt (F := Ideal) c (grid0.coords t) (tbl m 0)).toNat
      = ((tbl m 0 : IVec S256 32) (ix1 (⟨t.val, Nat.lt_of_lt_of_eq t.isLt N_0⟩ : Fin 256))).toNat :=
  congrArg BitVec.toNat (word_eq m t)

theorem κs_val (h : Pre m) (n : Fin 256) : (κs m h n).val = ((tbl m 0 : IVec S256 32) (ix1 n)).toNat := rfl

/-- so it is below 32, -/
theorem word_lt (h : Pre m) (c : Dev nD) (t : Fin grid0.N) :
    (Payload.wordAt (F := Ideal) c (grid0.coords t) (tbl m 0)).toNat < 32 :=
  lt_of_eq_of_lt (word_toNat m c t) (tbl_lt m h ⟨t.val, Nat.lt_of_lt_of_eq t.isLt N_0⟩)

/-- and as a row number it is the category of sorted row t. -/
theorem word_row (h : Pre m) (c : Dev nD) (t : Fin grid0.N) :
    (⟨(Payload.wordAt (F := Ideal) c (grid0.coords t) (tbl m 0)).toNat, word_lt m h c t⟩ : Fin 32)
      = κs m h ⟨t.val, Nat.lt_of_lt_of_eq t.isLt N_0⟩ :=
  Fin.ext ((word_toNat m c t).trans (κs_val m h ⟨t.val, Nat.lt_of_lt_of_eq t.isLt N_0⟩).symm)

/-- What point t leaves in the output's staging buffer is row t of the sorted result: the product of its input block
    and its weight block plus its bias row, each block read where it lies in its array. -/
theorem point_eq (h : Pre m) (c : Dev nD) (t : Fin (cfgM m (ok_of_pre m h)).N) (r : Fin 32) (e : Fin 1024) :
    outsAt0 m (ok_of_pre m h) (hyps_of_pre m h (ok_of_pre m h)) c t (ix3 (0 : Fin 1) r e)
      = sortedOut m h c (ix3 (⟨t.val, Nat.lt_of_lt_of_eq t.isLt N_0⟩ : Fin 256) r e) := by
  unfold outsAt0
  refine (Payload.out0_apply c (grid0.coords t) (ms0_0 m (ok_of_pre m h) t) (hs0_0 m (ok_of_pre m h) t) (ms0_1 m (ok_of_pre m h) t) (hs0_1 m (ok_of_pre m h) t)
    (ms0_2 m (ok_of_pre m h) t) (hs0_2 m (ok_of_pre m h) t) (ms0_3 m (ok_of_pre m h) t) (hs0_3 m (ok_of_pre m h) t)
    (iblk m (ok_of_pre m h) c 0 t) (iblk m (ok_of_pre m h) c 1 t) (iblk m (ok_of_pre m h) c 2 t) (tbl m 0)
    (Hyps.c0 (hyps_of_pre m h (ok_of_pre m h)) c t) (word_lt m h c t) r e).trans ?_
  unfold sortedOut
  refine congrArg₂ (· + ·) (Finset.sum_congr rfl fun d _ => congrArg₂ (· * ·) ?_ ?_) ?_
  · exact iblk0_apply m (ok_of_pre m h) c t r d
  · exact (iblk1_apply m (ok_of_pre m h) c t d e (word_lt m h c t)).trans
      (congrArg (fun k : Fin 32 => Wm m c (ix3 k d e)) (word_row m h c t))
  · exact (iblk2_apply m (ok_of_pre m h) c t _ e).trans
      (congrArg (fun k : Fin 32 => bm m c (ix2 k e)) (word_row m h c t))

/-- What point t writes back is block t of the sorted result. -/
theorem flushed_eq (h : Pre m) (c : Dev nD) (t : Fin (cfgM m (ok_of_pre m h)).N) :
    (dats m (ok_of_pre m h) (hyps_of_pre m h (ok_of_pre m h)) 0 c).flushed 3 t
      = (((cfgM m (ok_of_pre m h)).win 3).blk t).view.read (Elt Ideal) (sortedOut m h c) := by
  show ((cfgM m (ok_of_pre m h)).win 3).cut (grid0.coords t) ((dats m (ok_of_pre m h) (hyps_of_pre m h (ok_of_pre m h)) 0 c).after 3 t) = _
  rw [after0_3]
  refine funext fun (y : S1x32x1024.Idx) => ?_
  obtain ⟨y0, r, e, rfl⟩ : ∃ (y0 : Fin 1) (r : Fin 32) (e : Fin 1024), y = ix3 y0 r e := ⟨y 0, y 1, y 2, eq_ix3 y⟩
  obtain rfl : y0 = 0 := Subsingleton.elim _ _
  exact (point_eq m h c t r e).trans (blk3_apply (adm m (ok_of_pre m h)) t (sortedOut m h c) r e).symm

/-- THE OUTPUT ARRAY after the last grid point. -/
theorem final3 (h : Pre m) (c : Dev nD) :
    (dats m (ok_of_pre m h) (hyps_of_pre m h (ok_of_pre m h)) 0 c).arrAt 3 (cfgM m (ok_of_pre m h)).N = sortedOut m h c :=
  (dats m (ok_of_pre m h) (hyps_of_pre m h (ok_of_pre m h)) 0 c).arrAt_eq_of_cover 3 (sortedOut m h c)
    (fun t _ => flushed_eq m h c t) (cover3 (adm m (ok_of_pre m h)))

end Cert.KernelIdeal.KernelBlocks

end
-- ==== Proof.KernelTail.lean ====
/-
  The kernel program's result. After the kernel the host takes the rows of the output array at the inverse positions:
  row i of the result is row σinv i of the output array, which is the result for sample σ (σinv i) = i. So the result is the
  common value, entry by entry.
-/
import proofs.«428378_j18674517803359_1_alg».proof.Proof.KernelBlocks
import proofs.«428378_j18674517803359_1_alg».proof.Defs
import proofs.«428378_j18674517803359_1_alg».proof.Proof.LibTRef
import proofs.«428378_j18674517803359_1_alg».proof.Proof.LibTake
import Idealize.ShloMosaic.Lib.StableHlo.Run
import Idealize.ShloMosaic.Lib.Pipeline.FrameSuffix

set_option maxRecDepth 16384

noncomputable section

open scoped BigOperators

namespace Cert.KernelIdeal.KernelTail

open Idealize.ShloMosaic Idealize.ShloMosaic.TcCoe Idealize.SL.Sem Idealize.ShloMosaic.ValueIdx
open Cert.KernelIdeal Cert.KernelIdeal.Gen Cert.KernelIdeal.HostPre Cert.KernelIdeal.OkHyps Cert.KernelIdeal.KernelBlocks

variable [hP : Cert.Pre_finite_inputs.Facts]
variable (m : (ℓ : Loc nD τ sig) → Buf (Elt Ideal) ℓ) (ρ : Dev nD → PrngReg)

/-- The output array after the last grid point, at its literal type. -/
abbrev outArr (hO : Ok m) (hH : Hyps m hO) (c : Dev nD) : Vec Ideal S256x32x1024 .f32 :=
  (dats m hO hH 0 c).arrAt 3 (cfgM m hO).N

/-- Core c's buffer contents when the kernel has ended: the pipeline's arrays as the kernel left them, every other
    buffer as it was when the kernel was launched. -/
abbrev exitVal (hO : Ok m) (hH : Hyps m hO) (c : Dev nD) : Valuation τ sig (Elt Ideal) :=
  Pipeline.withArrays (Pipeline.pin pcfgs (fun _ => adm m hO) 0).spec c (V0 m c)
    (fun w => (dats m hO hH 0 c).arrAt w (Pipeline.pin pcfgs (fun _ => adm m hO) 0).N)

/-- The host's last lines as a function of the positions and of the table whose rows they take: the positions are
    wrapped and kept as a column, tested to be row numbers, the table's slabs gathered at the column, and the fill
    value selected where the test fails. -/
def tailFn (idx : IVec S256 32) (x : Vec Ideal S256x32x1024 .f32) : Vec Ideal S256x32x1024 .f32 :=
  select (broadcastInDim S256x32x1024 ![0] bcast_S256_S256x32x1024_0
      (Cert.LibTake.inb bcast_S_S256x1 bcast_S1_S1x1_1 bcast_S1x1_S256x1_0_1 reducesTo_S256x1_S256_d1 h_S_
        (Cert.LibTake.col bcast_S_S256 bcast_S256_S256x1_0 idx)))
    (Host.gather gather_S256x32x1024_S256x1_S256x32x1024_12_0_n_n_0_1_1321024 x
      (Cert.LibTake.col bcast_S_S256 bcast_S256_S256x1_0 idx))
    (broadcastInDim S256x32x1024 ![] bcast_S_S256x32x1024 (constant (F := Ideal) S_ .f32 0x7FC00000#32))

set_option maxHeartbeats 4000000 in
/-- The result buffer after the host's last lines, from any contents E of the buffers: the fold of the 23 operations
    read at the result, each operation's result replaced by its function of its operands' contents, down to the two
    buffers the lines read and do not write, the positions' and the table's. -/
theorem tail_fold (E : Valuation τ sig (Elt Ideal)) :
    (StableHlo.after (hostOps1 (F := Ideal)) E (Proc.devRef .tc main_v5) : Vec Ideal S256x32x1024 .f32)
      = tailFn (E (Proc.devRef .tc main_v1)) (E (Proc.devRef .tc main_v4)) := by
  simp only [hostOps1]
  after_results
  simp only [Cert.LibTRef.ofBuf_toBuf]
  rfl

/-- When every position is a row number, entry (n, a, b) of the result is the table's entry (p n, a, b). -/
theorem tailFn_apply (idx : IVec S256 32) (x : Vec Ideal S256x32x1024 .f32) (p : Fin 256 → Fin 256)
    (hp : ∀ n : Fin 256, idx (ix1 n) = BitVec.ofNat 32 (p n).val) (n : Fin 256) (a : Fin 32) (b : Fin 1024) :
    tailFn idx x (ix3 n a b) = x (ix3 (p n) a b) :=
  Cert.LibTake.take3_apply gather_S256x32x1024_S256x1_S256x32x1024_12_0_n_n_0_1_1321024 rfl rfl rfl rfl rfl
    bcast_S256_S256x32x1024_0 bcast_S_S256x32x1024 x _ _ _ p
    (Cert.LibTake.col_apply bcast_S_S256 bcast_S256_S256x1_0 idx p hp)
    (Cert.LibTake.inb_apply bcast_S_S256x1 bcast_S1_S1x1_1 bcast_S1x1_S256x1_0_1 reducesTo_S256x1_S256_d1 h_S_ _ p
      (Cert.LibTake.col_apply bcast_S_S256 bcast_S256_S256x1_0 idx p hp)) n a b

/-- The positions' buffer is no array of the pipeline: at the kernel's end it holds the inverse positions. -/
theorem exit_v1 (hO : Ok m) (hH : Hyps m hO) (c : Dev nD) :
    (exitVal m hO hH c (Proc.devRef .tc main_v1) : IVec S256 32) = invIdx m c :=
  (Pipeline.withArrays_of_ne _ c (V0 m c) _ main_v1
    (by exact (by decide : ∀ w, Pipeline.arrRef spec0 w ≠ main_v1))).trans (V_v1 m c)

/-- The table's buffer is the pipeline's output array. -/
theorem exit_v4 (hO : Ok m) (hH : Hyps m hO) (c : Dev nD) :
    (exitVal m hO hH c (Proc.devRef .tc main_v4) : Vec Ideal S256x32x1024 .f32) = outArr m hO hH c :=
  Pipeline.withArrays_arr spec0 (launch0 (F := Ideal)).win.arr_inj c _ _ 3

/-- The result buffer is the output array's rows taken at the inverse positions. -/
theorem tail_eq (hO : Ok m) (hH : Hyps m hO) (c : Dev nD) :
    (Pipeline.afterTail pcfgs (fun _ => adm m hO) (dats m hO hH) 0 (V0 m) [hostOps1] c main_v5 : Vec Ideal S256x32x1024 .f32)
      = tailFn (invIdx m c) (outArr m hO hH c) := by
  unfold Pipeline.afterTail
  exact (tail_fold (exitVal m hO hH c)).trans (congrArg₂ tailFn (exit_v1 m hO hH c) (exit_v4 m hO hH c))

/-- What the host's last lines leave in the result buffer. -/
theorem tail_value (h : Pre m) (c : Dev nD) (κ : Fin 256 → Fin 32)
    (hκ : ∀ (c : Dev nD) (i : Fin 256), m ((c.tc : Thread nD τ).loc main_arg1) (ix1 i) = BitVec.ofNat 32 (κ i).val) :
    Pipeline.afterTail pcfgs (fun _ => adm m (ok_of_pre m h)) (dats m (ok_of_pre m h) (hyps_of_pre m h (ok_of_pre m h))) 0 (V0 m) [hostOps1] c main_v5
      = Cert.Spec.G (m ((c.tc : Thread nD τ).loc main_arg0)) κ (m ((c.tc : Thread nD τ).loc main_arg2)) (m ((c.tc : Thread nD τ).loc main_arg3)) := by
  refine (tail_eq m (ok_of_pre m h) (hyps_of_pre m h (ok_of_pre m h)) c).trans ?_
  have key : (tailFn (invIdx m c) (outArr m (ok_of_pre m h) (hyps_of_pre m h (ok_of_pre m h)) c) : Cert.Spec.SX.Idx → EReal)
      = Cert.Spec.G (m ((c.tc : Thread nD τ).loc main_arg0)) κ (m ((c.tc : Thread nD τ).loc main_arg2)) (m ((c.tc : Thread nD τ).loc main_arg3)) := by
    funext j
    obtain ⟨i, t, hh, rfl⟩ : ∃ (i : Fin 256) (t : Fin 32) (hh : Fin 1024), j = ix3 i t hh := ⟨j 0, j 1, j 2, eq_ix3 j⟩
    -- row i of the result is row σinv i of the output array,
    refine (tailFn_apply (invIdx m c) _ (σinv m c) (invIdx_apply m c) i t hh).trans ?_
    -- which is the result for sample σ (σinv i) = i
    refine (congrFun (final3 m h c) (ix3 (σinv m c i) t hh)).trans ?_
    refine (sortedOut_apply m h c κ hκ (σinv m c i) t hh).trans ?_
    rw [σ_σinv m c i]
    exact (Cert.Spec.G_apply _ κ _ _ i t hh).symm
  exact key

/-- Every weakly fair execution of the kernel program ends with its result at the common value and its arguments
    unchanged, under the precondition, when the categories are the row numbers κ. -/
theorem run (h : Pre m) (κ : Fin 256 → Fin 32)
    (hκ : ∀ (c : Dev nD) (i : Fin 256), m ((c.tc : Thread nD τ).loc main_arg1) (ix1 i) = BitVec.ofNat 32 (κ i).val) :
    θ_run (defs (F := Ideal)) (onTc (τ := τ) (main (F := Ideal))) ⟨m, fun _ => 0, ρ⟩ fun r => ∀ c : Dev nD,
      r.2.mem ((c.tc : Thread nD τ).loc main_v5)
          = Cert.Spec.G (m ((c.tc : Thread nD τ).loc main_arg0)) κ (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  -- the frame run's post: the pipeline's arrays at what the kernel left, every other buffer as the host's last lines
  -- leave it; the result buffer and the first two arguments are of the second kind, the weights and the biases are
  -- input arrays of the pipeline, which the kernel leaves as it found them
  exact (θ_run defs _ _).mono (fun r hr c =>
      ⟨((hr c).2 main_v5 (by decide : main_v5 ∈ Pipeline.restRefs sig spec0)).trans (tail_value m h c κ hκ),
       ((hr c).2 main_arg0 (by decide : main_arg0 ∈ Pipeline.restRefs sig spec0)).trans
         (W_main_arg0 m (ok_of_pre m h) (dats m (ok_of_pre m h) (hyps_of_pre m h (ok_of_pre m h))) c),
       ((hr c).2 main_arg1 (by decide : main_arg1 ∈ Pipeline.restRefs sig spec0)).trans
         (W_main_arg1 m (ok_of_pre m h) (dats m (ok_of_pre m h) (hyps_of_pre m h (ok_of_pre m h))) c),
       ((hr c).1 1).trans (((dats m (ok_of_pre m h) (hyps_of_pre m h (ok_of_pre m h)) 0 c).arrAt_in 1 rfl _).trans
         ((A_eq m (ok_of_pre m h) (hyps_of_pre m h (ok_of_pre m h)) c 1).trans (V_main_arg2 m c))),
       ((hr c).1 2).trans (((dats m (ok_of_pre m h) (hyps_of_pre m h (ok_of_pre m h)) 0 c).arrAt_in 2 rfl _).trans
         ((A_eq m (ok_of_pre m h) (hyps_of_pre m h (ok_of_pre m h)) c 2).trans (V_main_arg3 m c)))⟩)
      (run_main m ρ (ok_of_pre m h) (hyps_of_pre m h (ok_of_pre m h)))

end Cert.KernelIdeal.KernelTail

end
-- ==== Proof.LibGatherRows.lean ====
/-
  Rows of a table gathered by a column of start indices, read at one entry. For a table of K rows and D columns and
  N start indices kept as an N × 1 column, with the table's row axis collapsed and start-indexed, its column axis the
  result's offset axis, no batching axes and the index vector on axis 1 (what indexing a matrix by a vector of row
  numbers lowers to), entry (n, j) of the result is the table's entry (r, j), where r is start index n read as a signed
  integer and clamped into 0 … K - 1.
-/
import Idealize.ShloMosaic.Lib.ValueIdx

namespace Cert.LibGatherRows

open Idealize.ShloMosaic Idealize.ShloMosaic.ValueIdx

/-- The row gather at entry (n, j): the table at the clamped start index of position n, column j. -/
theorem gather_rows_apply {α : Type} {K D N w : Nat}
    (d : GatherDims ⟨2, ![K, D]⟩ ⟨2, ![N, 1]⟩ ⟨2, ![N, D]⟩)
    (hoff : d.offsetDims = [1]) (hcoll : d.collapsedSliceDims = [0]) (hob : d.operandBatchingDims = [])
    (hsim : d.startIndexMap = [0]) (hivd : d.indexVectorDim = 1) (hK : 0 < K)
    (x : (⟨2, ![K, D]⟩ : Shape).Idx → α) (idx : IVec ⟨2, ![N, 1]⟩ w) (n : Fin N) (j : Fin D) :
    Host.gather d x idx (ix2 n j)
      = x (ix2 (⟨min (idx (ix2 n (0 : Fin 1))).toInt.toNat (K - 1), by omega⟩ : Fin K) j) := by
  unfold Host.gather
  congr 1
  funext a
  -- no operand axis is a batching axis, so the batching coordinate vanishes on both axes
  have hb : ∀ c : Fin 2, c ∉ d.operandBatchingDims := fun c => by rw [hob]; exact List.not_mem_nil
  have h10 : (1 : Fin 2) ≠ 0 := by decide
  refine Fin.ext ?_
  show d.start (ix2 n j) idx a + d.batchCoord (ix2 n j) a + d.offCoord (ix2 n j) a = _
  rw [GatherDims.batchCoord_eq_zero _ _ _ (hb a), Nat.add_zero]
  match a with
  | ⟨0, _⟩ =>
    -- the row axis: collapsed (offset coordinate 0, slice size 1) and start-indexed, so the operand index is the
    -- start index of position n clamped to K - 1
    show d.start (ix2 n j) idx (0 : Fin 2) + d.offCoord (ix2 n j) (0 : Fin 2)
      = min (idx (ix2 n (0 : Fin 1))).toInt.toNat (K - 1)
    have hc : (0 : Fin 2) ∈ d.collapsedSliceDims := by rw [hcoll]; exact List.mem_singleton.mpr rfl
    have hk : (0 : Fin 2) ∉ d.sKept := fun h => ((GatherDims.mem_sKept _ _).mp h).1 hc
    have hm : (0 : Fin 2) ∈ d.startIndexMap := by rw [hsim]; exact List.mem_singleton.mpr rfl
    have hsl : d.sliceSizes 0 = 1 := d.slice_collapsed 0 hc
    -- the result's only batch axis is axis 0: a batch axis is not the offset axis 1
    have hbd : ∀ X : Fin 2, X ∈ d.batchDims → X = 0 := by
      intro X hX
      have h1 := (List.mem_filter.1 hX).2
      rw [hoff] at h1
      have h2 : X ≠ 1 := by simpa using h1
      apply Fin.ext
      have h3 : X.val ≠ 1 := fun h => h2 (Fin.ext h)
      have := X.isLt
      show X.val = 0
      omega
    -- the start index of result entry (n, j) is read at (n, 0): the batch coordinate n on axis 0, component 0 on
    -- the index vector's axis 1
    have hsi : d.siIdx (ix2 n j) ⟨List.idxOf (0 : Fin 2) d.startIndexMap, List.idxOf_lt_length_iff.2 hm⟩
        = ix2 n (0 : Fin 1) := by
      funext b
      match b with
      | ⟨0, _⟩ =>
        unfold GatherDims.siIdx
        rw [dif_neg (by rw [hivd]; simp)]
        unfold GatherDims.siCoord
        apply Fin.ext
        simp only [Fin.val_cast]
        have e : ∀ X : Fin 2, X = 0 → ((ix2 n j) X).val = n.val := fun X h => by subst h; rfl
        exact e _ (hbd _ (List.getElem_mem _))
      | ⟨1, _⟩ =>
        unfold GatherDims.siIdx
        rw [dif_pos (by rw [hivd])]
        apply Fin.ext
        show List.idxOf (0 : Fin 2) d.startIndexMap = 0
        rw [hsim]; simp
    rw [GatherDims.offCoord_eq_zero _ _ _ hk, Nat.add_zero]
    unfold GatherDims.start
    rw [dif_pos hm, hsi]
    show min (idx (ix2 n (0 : Fin 1))).toInt.toNat (K - d.sliceSizes 0) = min (idx (ix2 n (0 : Fin 1))).toInt.toNat (K - 1)
    rw [hsl]
  | ⟨1, _⟩ =>
    -- the column axis: not start-indexed (start 0) and the one kept axis, read through the result's offset axis 1,
    -- so the operand index is j
    show d.start (ix2 n j) idx (1 : Fin 2) + d.offCoord (ix2 n j) (1 : Fin 2) = j.val
    have hm : (1 : Fin 2) ∉ d.startIndexMap := by
      rw [hsim]; exact fun h => h10 (List.mem_singleton.1 h)
    have hk : (1 : Fin 2) ∈ d.sKept := by
      rw [GatherDims.mem_sKept, hcoll]
      exact ⟨fun h => h10 (List.mem_singleton.1 h), hb 1⟩
    have hod : ∀ X : Fin 2, X ∈ d.offsetDims → X = 1 := by
      intro X hX; rw [hoff] at hX; exact List.mem_singleton.1 hX
    unfold GatherDims.start
    rw [dif_neg hm, Nat.zero_add]
    unfold GatherDims.offCoord
    rw [dif_pos hk]
    have e : ∀ X : Fin 2, X = 1 → ((ix2 n j) X).val = j.val := fun X h => by subst h; rfl
    exact e _ (hod _ (List.getElem_mem _))

end Cert.LibGatherRows
-- ==== Proof.RefValue.lean ====
/-
  The reference's value. The reference wraps a negative category by 32, gathers each sample's weight matrix and bias
  row at its category, multiplies every sample's block by its matrix (a product batched over the samples, contracted
  over the 1024 input columns) and adds the bias row to each of the block's rows. For categories in range this is the
  common value of Spec.lean, entry by entry.
-/
import proofs.«428378_j18674517803359_1_alg».proof.Proof.Gen.ReferenceIdeal.Run
import proofs.«428378_j18674517803359_1_alg».proof.Proof.Gen.ReferenceIdeal.Read
import proofs.«428378_j18674517803359_1_alg».proof.Proof.Spec
import proofs.«428378_j18674517803359_1_alg».proof.Proof.LibGatherRows
import Idealize.ShloMosaic.PureOps.Ideal.Laws
import Idealize.ShloMosaic.Lib.ValueIdx
import Idealize.ShloMosaic.Lib.Pipeline.Value
import Idealize.ShloMosaic.Lib.StableHlo.Predicate

noncomputable section

open scoped BigOperators

namespace Cert.ReferenceIdeal.RefValue

open Idealize.ShloMosaic Idealize.ShloMosaic.TcCoe Idealize.SL.Sem Idealize.ShloMosaic.ValueIdx
open Cert.ReferenceIdeal

/-! ## Slabs of a rank-3 table gathered by a column of start indices -/

/-- A list known to be [1, 2] has 1 at position 0. -/
private theorem get_fst (l : List (Fin 3)) (k : Nat) (h : k < l.length) (hl : l = [1, 2]) (hk : k = 0) :
    l[k]'h = 1 := by
  subst hl; subst hk; rfl

/-- A list known to be [1, 2] has 2 at position 1. -/
private theorem get_snd (l : List (Fin 3)) (k : Nat) (h : k < l.length) (hl : l = [1, 2]) (hk : k = 1) :
    l[k]'h = 2 := by
  subst hl; subst hk; rfl

/-- For a table of K slabs of D × E entries and N start indices kept as an N × 1 column, with the table's slab axis
    collapsed and start-indexed, its two other axes the result's offset axes 1 and 2, no batching axes and the index
    vector on axis 1, entry (n, p, q) of the result is the table's entry (r, p, q), where r is start index n read as
    a signed integer and clamped into 0 … K - 1. -/
theorem gather_slabs_apply {α : Type} {K D E N w : Nat}
    (d : GatherDims ⟨3, ![K, D, E]⟩ ⟨2, ![N, 1]⟩ ⟨3, ![N, D, E]⟩)
    (hoff : d.offsetDims = [1, 2]) (hcoll : d.collapsedSliceDims = [0]) (hob : d.operandBatchingDims = [])
    (hsim : d.startIndexMap = [0]) (hivd : d.indexVectorDim = 1) (hK : 0 < K)
    (x : (⟨3, ![K, D, E]⟩ : Shape).Idx → α) (idx : IVec ⟨2, ![N, 1]⟩ w) (n : Fin N) (p : Fin D) (q : Fin E) :
    Host.gather d x idx (ix3 n p q)
      = x (ix3 (⟨min (idx (ix2 n (0 : Fin 1))).toInt.toNat (K - 1), by omega⟩ : Fin K) p q) := by
  unfold Host.gather
  congr 1
  funext a
  -- no operand axis is a batching axis, so the batching coordinate vanishes on every axis
  have hb : ∀ c : Fin 3, c ∉ d.operandBatchingDims := fun c => by rw [hob]; exact List.not_mem_nil
  have h10 : (1 : Fin 3) ≠ 0 := by decide
  have h20 : (2 : Fin 3) ≠ 0 := by decide
  -- the operand's kept axes are 1 and 2, in order
  have hsk : d.sKept = [1, 2] := by
    show Shape.kept _ (d.collapsedSliceDims ++ d.operandBatchingDims) = _
    rw [hcoll, hob]; rfl
  refine Fin.ext ?_
  show d.start (ix3 n p q) idx a + d.batchCoord (ix3 n p q) a + d.offCoord (ix3 n p q) a = _
  rw [GatherDims.batchCoord_eq_zero _ _ _ (hb a), Nat.add_zero]
  match a with
  | ⟨0, _⟩ =>
    -- the slab axis: collapsed (offset coordinate 0, slice size 1) and start-indexed, so the operand index is the
    -- start index of position n clamped to K - 1
    show d.start (ix3 n p q) idx (0 : Fin 3) + d.offCoord (ix3 n p q) (0 : Fin 3)
      = min (idx (ix2 n (0 : Fin 1))).toInt.toNat (K - 1)
    have hc : (0 : Fin 3) ∈ d.collapsedSliceDims := by rw [hcoll]; exact List.mem_singleton.mpr rfl
    have hk : (0 : Fin 3) ∉ d.sKept := fun h => ((GatherDims.mem_sKept _ _).mp h).1 hc
    have hm : (0 : Fin 3) ∈ d.startIndexMap := by rw [hsim]; exact List.mem_singleton.mpr rfl
    have hsl : d.sliceSizes 0 = 1 := d.slice_collapsed 0 hc
    -- the result's only batch axis is axis 0: a batch axis is neither offset axis
    have hbd : ∀ X : Fin 3, X ∈ d.batchDims → X = 0 := by
      intro X hX
      have h1 := (List.mem_filter.1 hX).2
      rw [hoff] at h1
      have h2 : X ≠ 1 ∧ X ≠ 2 := by simpa using h1
      apply Fin.ext
      have h3 : X.val ≠ 1 := fun h => h2.1 (Fin.ext h)
      have h4 : X.val ≠ 2 := fun h => h2.2 (Fin.ext h)
      have := X.isLt
      show X.val = 0
      omega
    -- the start index of result entry (n, p, q) is read at (n, 0)
    have hsi : d.siIdx (ix3 n p q) ⟨List.idxOf (0 : Fin 3) d.startIndexMap, List.idxOf_lt_length_iff.2 hm⟩
        = ix2 n (0 : Fin 1) := by
      funext b
      match b with
      | ⟨0, _⟩ =>
        unfold GatherDims.siIdx
        rw [dif_neg (by rw [hivd]; simp)]
        unfold GatherDims.siCoord
        apply Fin.ext
        simp only [Fin.val_cast]
        have e : ∀ X : Fin 3, X = 0 → ((ix3 n p q) X).val = n.val := fun X h => by subst h; rfl
        exact e _ (hbd _ (List.getElem_mem _))
      | ⟨1, _⟩ =>
        unfold GatherDims.siIdx
        rw [dif_pos (by rw [hivd])]
        apply Fin.ext
        show List.idxOf (0 : Fin 3) d.startIndexMap = 0
        rw [hsim]; simp
    rw [GatherDims.offCoord_eq_zero _ _ _ hk, Nat.add_zero]
    unfold GatherDims.start
    rw [dif_pos hm, hsi]
    show min (idx (ix2 n (0 : Fin 1))).toInt.toNat (K - d.sliceSizes 0) = min (idx (ix2 n (0 : Fin 1))).toInt.toNat (K - 1)
    rw [hsl]
  | ⟨1, _⟩ =>
    -- the first kept axis: not start-indexed (start 0), read through the result's offset axis 1
    show d.start (ix3 n p q) idx (1 : Fin 3) + d.offCoord (ix3 n p q) (1 : Fin 3) = p.val
    have hm : (1 : Fin 3) ∉ d.startIndexMap := by
      rw [hsim]; exact fun h => h10 (List.mem_singleton.1 h)
    have hk : (1 : Fin 3) ∈ d.sKept := by
      rw [GatherDims.mem_sKept, hcoll]
      exact ⟨fun h => h10 (List.mem_singleton.1 h), hb 1⟩
    have hi : List.idxOf (1 : Fin 3) d.sKept = 0 := by rw [hsk]; rfl
    unfold GatherDims.start
    rw [dif_neg hm, Nat.zero_add]
    unfold GatherDims.offCoord
    rw [dif_pos hk]
    have e : ∀ X : Fin 3, X = 1 → ((ix3 n p q) X).val = p.val := fun X h => by subst h; rfl
    exact e _ (get_fst _ _ _ hoff hi)
  | ⟨2, _⟩ =>
    -- the second kept axis: not start-indexed (start 0), read through the result's offset axis 2
    show d.start (ix3 n p q) idx (2 : Fin 3) + d.offCoord (ix3 n p q) (2 : Fin 3) = q.val
    have hm : (2 : Fin 3) ∉ d.startIndexMap := by
      rw [hsim]; exact fun h => h20 (List.mem_singleton.1 h)
    have hk : (2 : Fin 3) ∈ d.sKept := by
      rw [GatherDims.mem_sKept, hcoll]
      exact ⟨fun h => h20 (List.mem_singleton.1 h), hb 2⟩
    have hi : List.idxOf (2 : Fin 3) d.sKept = 1 := by rw [hsk]; rfl
    unfold GatherDims.start
    rw [dif_neg hm, Nat.zero_add]
    unfold GatherDims.offCoord
    rw [dif_pos hk]
    have e : ∀ X : Fin 3, X = 2 → ((ix3 n p q) X).val = q.val := fun X h => by subst h; rfl
    exact e _ (get_snd _ _ _ hoff hi)

/-! ## The start index of a sample -/

/-- A category in range is not negative: its signed compare with 0 gives the bit 0. -/
theorem slt_zero (k : Nat) (hk : k < 32) : IntOp.cmpi .slt (BitVec.ofNat 32 k) 0#32 = 0#1 := by
  apply eq_zero_of_ne_one
  intro h
  have := (StableHlo.Predicate.slt_ofNat_iff k 0 (by omega) (by norm_num)).1 h
  omega

/-- A category in range, read signed and clamped into 0 … 31, is itself. -/
theorem clamp_cat (k : Nat) (hk : k < 32) : min (BitVec.ofNat 32 k).toInt.toNat (32 - 1) = k := by
  rw [StableHlo.Predicate.toInt_ofNat_small k (by omega), Int.toNat_natCast]
  omega

/-- The clamped start index, as a row number, when the word is a category in range. -/
theorem fin_clamp (w : BitVec 32) (k : Fin 32) (hw : w = BitVec.ofNat 32 k.val)
    (hlt : min w.toInt.toNat (32 - 1) < 32) : (⟨min w.toInt.toNat (32 - 1), hlt⟩ : Fin 32) = k := by
  subst hw
  exact Fin.ext (clamp_cat _ k.isLt)

section Start

variable (x1 : (⟨S256, .i32⟩ : BufTy).Contents (Elt Ideal)) (κ : Fin 256 → Fin 32)
  (hκ : ∀ i : Fin 256, x1 (ix1 i) = BitVec.ofNat 32 (κ i).val)
include hκ

/-- The wrapped category of sample i (the weights' copy of the select) is its category: the compare is 0. -/
theorem v4_at (i : Fin 256) : Read.val_main_v4 (F := Ideal) x1 (ix1 i) = BitVec.ofNat 32 (κ i).val := by
  rw [Read.val_main_v4_apply, Read.val_main_v1_apply, Read.val_main_v0_apply, Read.val_main_c_apply, hκ i,
    slt_zero _ (κ i).isLt, select_zero]

/-- The wrapped category of sample i (the biases' copy of the select) is its category. -/
theorem v11_at (i : Fin 256) : Read.val_main_v11 (F := Ideal) x1 (ix1 i) = BitVec.ofNat 32 (κ i).val := by
  rw [Read.val_main_v11_apply, Read.val_main_v8_apply, Read.val_main_v7_apply, Read.val_main_c_1_apply, hκ i,
    slt_zero _ (κ i).isLt, select_zero]

omit hκ in
/-- The column's entry (i, 0) reads the vector's entry i. -/
theorem idx_col (i : Fin 256) : Read.idx_main_v5 (ix2 i (0 : Fin 1)) = ix1 i := by
  funext a; match a with | ⟨0, _⟩ => rfl

/-- The weights' column of start indices at (i, 0). -/
theorem v5_at (i : Fin 256) : Read.val_main_v5 (F := Ideal) x1 (ix2 i (0 : Fin 1)) = BitVec.ofNat 32 (κ i).val := by
  rw [Read.val_main_v5_apply, idx_col, v4_at x1 κ hκ i]

/-- The biases' column of start indices at (i, 0). -/
theorem v12_at (i : Fin 256) : Read.val_main_v12 (F := Ideal) x1 (ix2 i (0 : Fin 1)) = BitVec.ofNat 32 (κ i).val := by
  rw [Read.val_main_v12_apply]
  exact (congrArg _ (idx_col i)).trans (v11_at x1 κ hκ i)

/-! ## The two gathers -/

/-- The gathered weights at (i, k, h): the matrix of sample i's category at (k, h). -/
theorem v6_at (x2 : (⟨S32x1024x1024, .f32⟩ : BufTy).Contents (Elt Ideal)) (i : Fin 256) (k h : Fin 1024) :
    Read.val_main_v6 (F := Ideal) x1 x2 (ix3 i k h) = x2 (ix3 (κ i) k h) := by
  unfold Read.val_main_v6
  rw [gather_slabs_apply _ rfl rfl rfl rfl rfl (by decide), fin_clamp _ (κ i) (v5_at x1 κ hκ i)]

/-- The gathered biases at (i, h): the row of sample i's category at h. -/
theorem v13_at (x3 : (⟨S32x1024, .f32⟩ : BufTy).Contents (Elt Ideal)) (i : Fin 256) (h : Fin 1024) :
    Read.val_main_v13 (F := Ideal) x1 x3 (ix2 i h) = x3 (ix2 (κ i) h) := by
  unfold Read.val_main_v13
  rw [Cert.LibGatherRows.gather_rows_apply _ rfl rfl rfl rfl rfl (by decide), fin_clamp _ (κ i) (v12_at x1 κ hκ i)]

omit hκ in
/-- The product's left operand is read at (i, t, k). -/
theorem lidx_at (i : Fin 256) (t : Fin 32) (h k : Fin 1024) : Read.lidx_main_v14 (ix3 i t h) k = ix3 i t k := by
  funext a; match a with | ⟨0, _⟩ => rfl | ⟨1, _⟩ => rfl | ⟨2, _⟩ => rfl

omit hκ in
/-- The product's right operand is read at (i, k, h). -/
theorem ridx_at (i : Fin 256) (t : Fin 32) (h k : Fin 1024) : Read.ridx_main_v14 (ix3 i t h) k = ix3 i k h := by
  funext a; match a with | ⟨0, _⟩ => rfl | ⟨1, _⟩ => rfl | ⟨2, _⟩ => rfl

omit hκ in
/-- The two broadcasts of the bias read the gathered rows at (i, h). -/
theorem idx_bias (i : Fin 256) (t : Fin 32) (h : Fin 1024) :
    Read.idx_main_v15 (Read.idx_main_v16 (ix3 i t h)) = ix2 i h := by
  funext a; match a with | ⟨0, _⟩ => rfl | ⟨1, _⟩ => rfl

/-! ## The composed term is the common value -/

/-- Entry by entry the reference's result is the sum over the contracted coordinate of the sample's inputs times its
    category's weights, plus its category's bias: the two sums agree term by term. -/
theorem result_eq (x0 : (⟨S256x32x1024, .f32⟩ : BufTy).Contents (Elt Ideal))
    (x2 : (⟨S32x1024x1024, .f32⟩ : BufTy).Contents (Elt Ideal)) (x3 : (⟨S32x1024, .f32⟩ : BufTy).Contents (Elt Ideal)) :
    Read.val_main_v17 (F := Ideal) x0 x1 x2 x3 = Cert.Spec.G x0 κ x2 x3 := by
  funext j
  obtain ⟨i, t, h, rfl⟩ : ∃ (i : Fin 256) (t : Fin 32) (h : Fin 1024), j = ix3 i t h := ⟨j 0, j 1, j 2, eq_ix3 j⟩
  rw [Cert.Spec.G_apply, Read.val_main_v17_apply, Read.val_main_v14_apply, Read.val_main_v16_apply,
    Read.val_main_v15_apply, idx_bias, v13_at x1 κ hκ x3, Ideal.addf_def]
  unfold Cert.Spec.g
  congr 1
  refine Finset.sum_congr rfl fun k _ => ?_
  rw [lidx_at, ridx_at, v6_at x1 κ hκ x2]

end Start

/-- Every weakly fair execution of the reference ends with its result at the common value, when the categories are
    the row numbers κ. -/
theorem run (m : (ℓ : Loc nD τ sig) → Buf (Elt Ideal) ℓ) (ρ : Dev nD → PrngReg) (κ : Fin 256 → Fin 32)
    (hκ : ∀ (c : Dev nD) (i : Fin 256), m ((c.tc : Thread nD τ).loc main_arg1) (ix1 i) = BitVec.ofNat 32 (κ i).val) :
    θ_run (defs (F := Ideal)) (onTc (τ := τ) (main (F := Ideal))) ⟨m, fun _ => 0, ρ⟩ fun r => ∀ c : Dev nD,
      r.2.mem ((c.tc : Thread nD τ).loc main_v17)
          = Cert.Spec.G (m ((c.tc : Thread nD τ).loc main_arg0)) κ (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono (fun _ h c =>
      ⟨(h c).1.trans ((Read.val_main_v17_eq _ _ _ _).trans (result_eq _ κ (hκ c) _ _ _)), (h c).2⟩)
    (Cert.ReferenceIdeal.Value.run (F := Ideal) m ρ)

end Cert.ReferenceIdeal.RefValue

end
-- ==== Proof.lean ====
/-
  The kernel program and its reference compute one function of the arguments over the extended reals: for every sample
  i with category κ i, out[i, t, h] = (Σ_d x[i, t, d] · W[κ i, d, h]) + b[κ i, h]  (Proof/Spec.lean).

  The kernel program sorts the samples by category (an argsort, Proof/LibArgsort.lean), takes the inputs and the
  categories at the sorted positions (Proof/LibTake.lean, Proof/HostPre.lean), runs one grid point per sorted sample —
  the weight slab fetched at the sample's category word, the bias row loaded at the same word (Proof/Payload.lean,
  Proof/KernelBlocks.lean) — and takes the rows of the result at the inverse positions (Proof/KernelTail.lean); the
  second argsort inverts the first, so row i of the result is sample i's. The reference gathers each sample's weight
  slab and bias row and multiplies (Proof/RefValue.lean).

  The kernel's run needs every category word to name one of the 32 weight slabs and bias rows; the precondition says
  0 ≤ category < 32 (Proof/PreDecode.lean), from which both side conditions of the generated frame follow, for the
  idealized program (Proof/OkHyps.lean) and for the word-level one (Proof/KOkHyps.lean). The idealization rewrote no
  operation, so there is nothing to preserve.
-/
import proofs.«428378_j18674517803359_1_alg».proof.Defs
import proofs.«428378_j18674517803359_1_alg».proof.Proof.Gen.Kernel
import proofs.«428378_j18674517803359_1_alg».proof.Proof.Gen.Kernel.Skeleton
import proofs.«428378_j18674517803359_1_alg».proof.Proof.Gen.Kernel.Launch
import proofs.«428378_j18674517803359_1_alg».proof.Proof.Gen.Kernel.Points
import proofs.«428378_j18674517803359_1_alg».proof.Proof.Gen.Kernel.Frame
import proofs.«428378_j18674517803359_1_alg».proof.Proof.Gen.KernelIdeal
import proofs.«428378_j18674517803359_1_alg».proof.Proof.Gen.KernelIdeal.Skeleton
import proofs.«428378_j18674517803359_1_alg».proof.Proof.Gen.KernelIdeal.Launch
import proofs.«428378_j18674517803359_1_alg».proof.Proof.Gen.KernelIdeal.Points
import proofs.«428378_j18674517803359_1_alg».proof.Proof.Gen.KernelIdeal.Frame
import proofs.«428378_j18674517803359_1_alg».proof.Proof.Gen.ReferenceIdeal
import proofs.«428378_j18674517803359_1_alg».proof.Proof.Gen.ReferenceIdeal.Run
import proofs.«428378_j18674517803359_1_alg».proof.Proof.Gen.Pre_finite_inputs
import proofs.«428378_j18674517803359_1_alg».proof.Proof.KOkHyps
import proofs.«428378_j18674517803359_1_alg».proof.Proof.OkHyps
import proofs.«428378_j18674517803359_1_alg».proof.Proof.KernelTail
import proofs.«428378_j18674517803359_1_alg».proof.Proof.RefValue
import Idealize.ShloMosaic.Adequacy
import Idealize.ShloMosaic.Init

noncomputable section

namespace Cert.Proof

open Idealize.ShloMosaic Idealize.SL.Sem Idealize.ShloMosaic.ValueIdx

/-- The word-level program runs: its two side conditions hold under the precondition. -/
theorem frame_k [hP : Cert.Pre_finite_inputs.Facts] : Cert.frame_Kernel (hKernel := Cert.Kernel.Gen.facts) := fun m ρ h =>
  Cert.Kernel.Gen.frame m ρ (Cert.Kernel.OkHyps.ok_of_pre m h) (Cert.Kernel.OkHyps.hyps_of_pre m h _)

/-- So does the idealized program. -/
theorem frame_ki [hP : Cert.Pre_finite_inputs.Facts] : Cert.frame_KernelIdeal (hKernelIdeal := Cert.KernelIdeal.Gen.facts) := fun m ρ h =>
  Cert.KernelIdeal.Gen.frame m ρ (Cert.KernelIdeal.OkHyps.ok_of_pre m h) (Cert.KernelIdeal.OkHyps.hyps_of_pre m h _)

/-- The reference is a host program: its run, with the result dropped. -/
theorem frame_ri [hP : Cert.Pre_finite_inputs.Facts] : Cert.frame_ReferenceIdeal (hReferenceIdeal := Cert.ReferenceIdeal.Gen.facts) := fun m ρ _ =>
  (θ_run Cert.ReferenceIdeal.defs _ _).mono (fun _ h c => (h c).2) (Cert.ReferenceIdeal.Value.run (F := Ideal) m ρ)

/-- Both idealized programs end at the common value of their arguments. -/
theorem algebraic [hP : Cert.Pre_finite_inputs.Facts] :
    Cert.algebraic_KernelIdeal_ReferenceIdeal (hKernelIdeal := Cert.KernelIdeal.Gen.facts) (hReferenceIdeal := Cert.ReferenceIdeal.Gen.facts) := by
  intro m ρ m' ρ' hpre hagree
  -- the categories as row numbers: the precondition bounds each word by 32
  let cat : IVec Cert.Pre_finite_inputs.S256 32 := m (((0 : Dev Cert.KernelIdeal.nD).tc : Thread Cert.KernelIdeal.nD Cert.KernelIdeal.τ).loc Cert.KernelIdeal.main_arg1)
  have hlt : ∀ i : Fin 256, (cat (ix1 i)).toNat < 32 := fun i => Cert.PreDecode.cat_lt _ _ _ _ (hpre 0) i
  let κ : Fin 256 → Fin 32 := fun i => ⟨(cat (ix1 i)).toNat, hlt i⟩
  have hκ : ∀ (c : Dev Cert.KernelIdeal.nD) (i : Fin 256),
      m ((c.tc : Thread Cert.KernelIdeal.nD Cert.KernelIdeal.τ).loc Cert.KernelIdeal.main_arg1) (ix1 i) = BitVec.ofNat 32 (κ i).val := by
    intro c i
    obtain rfl : c = 0 := Subsingleton.elim _ _
    refine BitVec.eq_of_toNat_eq ?_
    rw [BitVec.toNat_ofNat]
    exact (Nat.mod_eq_of_lt (cat (ix1 i)).isLt).symm
  have hκ' : ∀ (c : Dev Cert.ReferenceIdeal.nD) (i : Fin 256),
      m' ((c.tc : Thread Cert.ReferenceIdeal.nD Cert.ReferenceIdeal.τ).loc Cert.ReferenceIdeal.main_arg1) (ix1 i) = BitVec.ofNat 32 (κ i).val := by
    intro c i
    rw [(hagree c).2.1]
    exact hκ c i
  refine ⟨_, Cert.KernelIdeal.KernelTail.run m ρ hpre κ hκ, ?_⟩
  refine (θ_run Cert.ReferenceIdeal.defs _ _).mono (fun _ h c => ⟨(h c).1.trans ?_, (h c).2⟩)
    (Cert.ReferenceIdeal.RefValue.run m' ρ' κ hκ')
  rw [(hagree c).1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
